-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1024 : Shape := ⟨2, ![32768, 1024]⟩
abbrev S2048x1024 : Shape := ⟨2, ![2048, 1024]⟩
abbrev S2048 : Shape := ⟨1, ![2048]⟩
abbrev S2048x2048 : Shape := ⟨2, ![2048, 2048]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S2048 : S_.BroadcastsInDim S2048 (![] : Fin 0 → Fin S2048.rank)
  reducesTo_S2048_S_d0 : S2048.ReducesTo [0] S_
  bcast_S_S2048x2048 : S_.BroadcastsInDim S2048x2048 (![] : Fin 0 → Fin S2048x2048.rank)
  reducesTo_S2048x2048_S_d0_1 : S2048x2048.ReducesTo [0, 1] S_

variable [Facts]

def fn_part1 {F : FTy → Type} [FloatOps F] (main_arg4 : FVec F S2048 .f32) (main_arg5 : FVec F S2048x2048 .f32) (main_arg6 : FVec F S2048 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048x2048 .f32 := Host.absf main_arg5
  let main_cst_8 : FVec F S_ .f32 := constant S_ .f32 0x7F800000#32
  let main_v25 : FVec F S2048x2048 .f32 := broadcastInDim S2048x2048 ![] bcast_S_S2048x2048 main_cst_8
  let main_v26 : IVec S2048x2048 1 := cmpf .olt main_v24 main_v25
  let main_c_9 : IVec S_ 1 := constantI S_ 1 1#1
  let main_v27 : IVec S_ 1 := (fun x v => Host.reduce IntOp.andi x v reducesTo_S2048x2048_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  main_v33

def fn {F : FTy → Type} [FloatOps F] (main_arg0 : FVec F S32768x1024 .f32) (main_arg1 : FVec F S2048x1024 .f32) (main_arg2 : FVec F S2048 .f32) (main_arg3 : FVec F S2048x2048 .f32) (main_arg4 : FVec F S2048 .f32) (main_arg5 : FVec F S2048x2048 .f32) (main_arg6 : FVec F S2048 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_arg6 main_v13 main_v16
-- ==== Kernel.lean ====
abbrev S32768x1024 : Shape := ⟨2, ![32768, 1024]⟩
abbrev S2048x1024 : Shape := ⟨2, ![2048, 1024]⟩
abbrev S2048 : Shape := ⟨1, ![2048]⟩
abbrev S2048x2048 : Shape := ⟨2, ![2048, 2048]⟩
abbrev S_ : Shape := ⟨0, ![]⟩
abbrev S1024x2048 : Shape := ⟨2, ![1024, 2048]⟩
abbrev S1x2048 : Shape := ⟨2, ![1, 2048]⟩
abbrev S32768x2048 : Shape := ⟨2, ![32768, 2048]⟩
abbrev S512x1024 : Shape := ⟨2, ![512, 1024]⟩
abbrev S512x2048 : Shape := ⟨2, ![512, 2048]⟩

abbrev nBuf : Space → Nat
  | .hbm => 74
  | .vmem => 18
  | .smem => 0
  | _ => 0

abbrev bufTy : (tb : Table) → Fin (tcTables nBuf tb) → BufTy
  | .hbm, ⟨0, _⟩ => ⟨S32768x1024, .f32⟩
  | .hbm, ⟨1, _⟩ => ⟨S2048x1024, .f32⟩
  | .hbm, ⟨2, _⟩ => ⟨S2048, .f32⟩
  | .hbm, ⟨3, _⟩ => ⟨S2048x2048, .f32⟩
  | .hbm, ⟨4, _⟩ => ⟨S2048, .f32⟩
  | .hbm, ⟨5, _⟩ => ⟨S2048x2048, .f32⟩
  | .hbm, ⟨6, _⟩ => ⟨S2048, .f32⟩
  | .hbm, ⟨7, _⟩ => ⟨S32768x1024, .bf16⟩
  | .hbm, ⟨8, _⟩ => ⟨S2048x1024, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S2048x1024, .f32⟩
  | .hbm, ⟨20, _⟩ => ⟨S2048x1024, .f32⟩
  | .hbm, ⟨21, _⟩ => ⟨S_, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S1024x2048, .f32⟩
  | .hbm, ⟨27, _⟩ => ⟨S1024x2048, .bf16⟩
  | .hbm, ⟨28, _⟩ => ⟨S1x2048, .f32⟩
  | .hbm, ⟨29, _⟩ => ⟨S32768x2048, .bf16⟩
  | .hbm, ⟨30, _⟩ => ⟨S2048x2048, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S2048x2048, .f32⟩
  | .hbm, ⟨36, _⟩ => ⟨S2048x2048, .f32⟩
  | .hbm, ⟨37, _⟩ => ⟨S2048x2048, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S2048x2048, .f32⟩
  | .hbm, ⟨42, _⟩ => ⟨S2048x2048, .f32⟩
  | .hbm, ⟨43, _⟩ => ⟨S_, .f32⟩
  | .hbm, ⟨44, _⟩ => ⟨S2048x2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S2048x2048, .bf16⟩
  | .hbm, ⟨50, _⟩ => ⟨S1x2048, .f32⟩
  | .hbm, ⟨51, _⟩ => ⟨S32768x2048, .bf16⟩
  | .hbm, ⟨52, _⟩ => ⟨S2048x2048, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S2048x2048, .f32⟩
  | .hbm, ⟨58, _⟩ => ⟨S2048x2048, .f32⟩
  | .hbm, ⟨59, _⟩ => ⟨S2048x2048, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S2048x2048, .f32⟩
  | .hbm, ⟨64, _⟩ => ⟨S2048x2048, .f32⟩
  | .hbm, ⟨65, _⟩ => ⟨S_, .f32⟩
  | .hbm, ⟨66, _⟩ => ⟨S2048x2048, .f32⟩
  | .hbm, ⟨67, _⟩ => ⟨S2048x2048, .f32⟩
  | .hbm, ⟨68, _⟩ => ⟨S2048x2048, .f32⟩
  | .hbm, ⟨69, _⟩ => ⟨S2048x2048, .f32⟩
  | .hbm, ⟨70, _⟩ => ⟨S2048x2048, .f32⟩
  | .hbm, ⟨71, _⟩ => ⟨S2048x2048, .bf16⟩
  | .hbm, ⟨72, _⟩ => ⟨S1x2048, .f32⟩
  | .hbm, ⟨73, _⟩ => ⟨S32768x2048, .f32⟩
  | .local _ .vmem, ⟨0, _⟩ => ⟨S512x1024, .bf16⟩
  | .local _ .vmem, ⟨1, _⟩ => ⟨S512x1024, .bf16⟩
  | .local _ .vmem, ⟨2, _⟩ => ⟨S1024x2048, .bf16⟩
  | .local _ .vmem, ⟨3, _⟩ => ⟨S1x2048, .f32⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S2048x2048, .bf16⟩
  | .local _ .vmem, ⟨9, _⟩ => ⟨S1x2048, .f32⟩
  | .local _ .vmem, ⟨10, _⟩ => ⟨S512x2048, .bf16⟩
  | .local _ .vmem, ⟨11, _⟩ => ⟨S512x2048, .bf16⟩
  | .local _ .vmem, ⟨12, _⟩ => ⟨S512x2048, .bf16⟩
  | .local _ .vmem, ⟨13, _⟩ => ⟨S512x2048, .bf16⟩
  | .local _ .vmem, ⟨14, _⟩ => ⟨S2048x2048, .bf16⟩
  | .local _ .vmem, ⟨15, _⟩ => ⟨S1x2048, .f32⟩
  | .local _ .vmem, ⟨16, _⟩ => ⟨S512x2048, .f32⟩
  | .local _ .vmem, ⟨17, _⟩ => ⟨S512x2048, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_cst_2 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_3 : Ref sig .tc := ⟨.hbm, 31, rfl⟩
abbrev main_v15 : Ref sig .tc := ⟨.hbm, 32, rfl⟩
abbrev main_cst_4 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_5 : Ref sig .tc := ⟨.hbm, 38, rfl⟩
abbrev main_cst_6 : Ref sig .tc := ⟨.hbm, 39, rfl⟩
abbrev main_call3_v0 : Ref sig .tc := ⟨.hbm, 40, rfl⟩
abbrev main_call3_v1 : Ref sig .tc := ⟨.hbm, 41, rfl⟩
abbrev main_call3_v2 : Ref sig .tc := ⟨.hbm, 42, rfl⟩
abbrev main_call3_v3 : Ref sig .tc := ⟨.hbm, 43, rfl⟩
abbrev main_call3_v4 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_cst_7 : Ref sig .tc := ⟨.hbm, 53, rfl⟩
abbrev main_v28 : Ref sig .tc := ⟨.hbm, 54, rfl⟩
abbrev main_cst_8 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_cst_9 : Ref sig .tc := ⟨.hbm, 60, rfl⟩
abbrev main_cst_10 : Ref sig .tc := ⟨.hbm, 61, rfl⟩
abbrev main_call5_v0 : Ref sig .tc := ⟨.hbm, 62, rfl⟩
abbrev main_call5_v1 : Ref sig .tc := ⟨.hbm, 63, rfl⟩
abbrev main_call5_v2 : Ref sig .tc := ⟨.hbm, 64, rfl⟩
abbrev main_call5_v3 : Ref sig .tc := ⟨.hbm, 65, rfl⟩
abbrev main_call5_v4 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x2048 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![64], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S2048x2048 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x2048 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bitsLt_bf16_f32 : FTy.bits .bf16 < FTy.bits .f32
  reducesTo_S2048x1024_S_d0_1 : S2048x1024.ReducesTo [0, 1] S_
  h_S_ : 0 < S_.numel
  bcast_S_S2048x1024 : S_.BroadcastsInDim S2048x1024 (![] : Fin 0 → Fin S2048x1024.rank)
  transposes_S2048x1024_S1024x2048_1_0 : S2048x1024.Transposes [1, 0] S1024x2048
  shapeCasts_S2048_S1x2048 : S2048.ShapeCasts S1x2048
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  inb_S512x2048_S512x2048_0_0 : ∀ a, (![0, 0] : Fin 2 → Nat) a + S512x2048.size a ≤ S512x2048.size a
  h_S512x2048 : 0 < S512x2048.numel
  packedbf16_S512x2048_S512x2048_0_0 : (Rect.unit (s := S512x2048) ![0, 0] S512x2048.size inb_S512x2048_S512x2048_0_0).PackedRows (EltTy.packing .bf16)
  reducesTo_S2048x2048_S_d0_1 : S2048x2048.ReducesTo [0, 1] S_
  bcast_S_S2048x2048 : S_.BroadcastsInDim S2048x2048 (![] : Fin 0 → Fin S2048x2048.rank)
  transposes_S2048x2048_S2048x2048_1_0 : S2048x2048.Transposes [1, 0] S2048x2048
  shapeCasts_S512x2048_S512x2048 : S512x2048.ShapeCasts S512x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  dot_S512x1024_S1024x2048_S512x2048_1_0_0_1_n_n_wf : DotDims.WF S512x1024 S1024x2048 S512x2048 [1] [0] [0] [1] [] []
  dot_S512x2048_S2048x2048_S512x2048_1_0_0_1_n_n_wf : DotDims.WF S512x2048 S2048x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S32768x1024.size a
  hwx0_0 : ∀ i : grid0.Coords, EltTy.bits .bf16 = 32 ∨ (Rect.block (s := S32768x1024) S512x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S1024x2048.size a
  hwx0_1 : ∀ i : grid0.Coords, EltTy.bits .bf16 = 32 ∨ (Rect.block (s := S1024x2048) S1024x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S32768x2048.size a
  hwx0_3 : ∀ i : grid0.Coords, EltTy.bits .bf16 = 32 ∨ (Rect.block (s := S32768x2048) S512x2048.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S32768x2048.size a
  hwx1_0 : ∀ i : grid1.Coords, EltTy.bits .bf16 = 32 ∨ (Rect.block (s := S32768x2048) S512x2048.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x2048.size a ≤ S2048x2048.size a
  hwx1_1 : ∀ i : grid1.Coords, EltTy.bits .bf16 = 32 ∨ (Rect.block (s := S2048x2048) S2048x2048.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x2048.size a
  hwx1_2 : ∀ i : grid1.Coords, EltTy.bits .f32 = 32 ∨ (Rect.block (s := S1x2048) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x2048.size a ≤ S32768x2048.size a
  hwx1_3 : ∀ i : grid1.Coords, EltTy.bits .bf16 = 32 ∨ (Rect.block (s := S32768x2048) S512x2048.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x2048.size a ≤ S32768x2048.size a
  hwx2_0 : ∀ i : grid2.Coords, EltTy.bits .bf16 = 32 ∨ (Rect.block (s := S32768x2048) S512x2048.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S2048x2048.size a ≤ S2048x2048.size a
  hwx2_1 : ∀ i : grid2.Coords, EltTy.bits .bf16 = 32 ∨ (Rect.block (s := S2048x2048) S2048x2048.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x2048.size a ≤ S1x2048.size a
  hwx2_2 : ∀ i : grid2.Coords, EltTy.bits .f32 = 32 ∨ (Rect.block (s := S1x2048) S1x2048.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x2048.size a ≤ S32768x2048.size a
  hwx2_3 : ∀ i : grid2.Coords, EltTy.bits .f32 = 32 ∨ (Rect.block (s := S32768x2048) S512x2048.size (cc2_transform_3 i) (hinb2_3 i)).WholeWords (EltTy.packing .f32)

variable [Facts₀]

def dot_S512x1024_S1024x2048_S512x2048_1_0_0_1_n_n : DotDims S512x1024 S1024x2048 S512x2048 where
  lhsContracting := [1]
  rhsContracting := [0]
  lhsNonContracting := [0]
  rhsNonContracting := [1]
  lhsBatch := []
  rhsBatch := []
  wf := dot_S512x1024_S1024x2048_S512x2048_1_0_0_1_n_n_wf
def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S1024x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v13) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S2048x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v25) S1x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S512x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v26) S512x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v37) S2048x2048.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v38) S1x2048.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v39) S512x2048.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S32768x1024 : Shape := ⟨2, ![32768, 1024]⟩
abbrev S2048x1024 : Shape := ⟨2, ![2048, 1024]⟩
abbrev S2048 : Shape := ⟨1, ![2048]⟩
abbrev S2048x2048 : Shape := ⟨2, ![2048, 2048]⟩
abbrev S_ : Shape := ⟨0, ![]⟩
abbrev S1024x2048 : Shape := ⟨2, ![1024, 2048]⟩
abbrev S32768x2048 : Shape := ⟨2, ![32768, 2048]⟩
abbrev S1x2048 : Shape := ⟨2, ![1, 2048]⟩

abbrev nBuf : Space → Nat
  | .hbm => 97
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S2048x1024, .f32⟩
  | .hbm, ⟨2, _⟩ => ⟨S2048, .f32⟩
  | .hbm, ⟨3, _⟩ => ⟨S2048x2048, .f32⟩
  | .hbm, ⟨4, _⟩ => ⟨S2048, .f32⟩
  | .hbm, ⟨5, _⟩ => ⟨S2048x2048, .f32⟩
  | .hbm, ⟨6, _⟩ => ⟨S2048, .f32⟩
  | .hbm, ⟨7, _⟩ => ⟨S2048x1024, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S2048x1024, .f32⟩
  | .hbm, ⟨19, _⟩ => ⟨S2048x1024, .f32⟩
  | .hbm, ⟨20, _⟩ => ⟨S_, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S1024x2048, .f32⟩
  | .hbm, ⟨26, _⟩ => ⟨S32768x2048, .f32⟩
  | .hbm, ⟨27, _⟩ => ⟨S1x2048, .f32⟩
  | .hbm, ⟨28, _⟩ => ⟨S32768x2048, .f32⟩
  | .hbm, ⟨29, _⟩ => ⟨S32768x2048, .f32⟩
  | .hbm, ⟨30, _⟩ => ⟨S_, .f32⟩
  | .hbm, ⟨31, _⟩ => ⟨S32768x2048, .f32⟩
  | .hbm, ⟨32, _⟩ => ⟨S32768x2048, .i1⟩
  | .hbm, ⟨33, _⟩ => ⟨S_, .f32⟩
  | .hbm, ⟨34, _⟩ => ⟨S32768x2048, .f32⟩
  | .hbm, ⟨35, _⟩ => ⟨S32768x2048, .f32⟩
  | .hbm, ⟨36, _⟩ => ⟨S32768x2048, .f32⟩
  | .hbm, ⟨37, _⟩ => ⟨S2048x2048, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S2048x2048, .f32⟩
  | .hbm, ⟨43, _⟩ => ⟨S2048x2048, .f32⟩
  | .hbm, ⟨44, _⟩ => ⟨S2048x2048, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S2048x2048, .f32⟩
  | .hbm, ⟨49, _⟩ => ⟨S2048x2048, .f32⟩
  | .hbm, ⟨50, _⟩ => ⟨S_, .f32⟩
  | .hbm, ⟨51, _⟩ => ⟨S2048x2048, .f32⟩
  | .hbm, ⟨52, _⟩ => ⟨S2048x2048, .f32⟩
  | .hbm, ⟨53, _⟩ => ⟨S2048x2048, .f32⟩
  | .hbm, ⟨54, _⟩ => ⟨S2048x2048, .f32⟩
  | .hbm, ⟨55, _⟩ => ⟨S2048x2048, .f32⟩
  | .hbm, ⟨56, _⟩ => ⟨S32768x2048, .f32⟩
  | .hbm, ⟨57, _⟩ => ⟨S1x2048, .f32⟩
  | .hbm, ⟨58, _⟩ => ⟨S32768x2048, .f32⟩
  | .hbm, ⟨59, _⟩ => ⟨S32768x2048, .f32⟩
  | .hbm, ⟨60, _⟩ => ⟨S_, .f32⟩
  | .hbm, ⟨61, _⟩ => ⟨S32768x2048, .f32⟩
  | .hbm, ⟨62, _⟩ => ⟨S32768x2048, .i1⟩
  | .hbm, ⟨63, _⟩ => ⟨S_, .f32⟩
  | .hbm, ⟨64, _⟩ => ⟨S32768x2048, .f32⟩
  | .hbm, ⟨65, _⟩ => ⟨S32768x2048, .f32⟩
  | .hbm, ⟨66, _⟩ => ⟨S32768x2048, .f32⟩
  | .hbm, ⟨67, _⟩ => ⟨S2048x2048, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S2048x2048, .f32⟩
  | .hbm, ⟨73, _⟩ => ⟨S2048x2048, .f32⟩
  | .hbm, ⟨74, _⟩ => ⟨S2048x2048, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S2048x2048, .f32⟩
  | .hbm, ⟨79, _⟩ => ⟨S2048x2048, .f32⟩
  | .hbm, ⟨80, _⟩ => ⟨S_, .f32⟩
  | .hbm, ⟨81, _⟩ => ⟨S2048x2048, .f32⟩
  | .hbm, ⟨82, _⟩ => ⟨S2048x2048, .f32⟩
  | .hbm, ⟨83, _⟩ => ⟨S2048x2048, .f32⟩
  | .hbm, ⟨84, _⟩ => ⟨S2048x2048, .f32⟩
  | .hbm, ⟨85, _⟩ => ⟨S2048x2048, .f32⟩
  | .hbm, ⟨86, _⟩ => ⟨S32768x2048, .f32⟩
  | .hbm, ⟨87, _⟩ => ⟨S1x2048, .f32⟩
  | .hbm, ⟨88, _⟩ => ⟨S32768x2048, .f32⟩
  | .hbm, ⟨89, _⟩ => ⟨S32768x2048, .f32⟩
  | .hbm, ⟨90, _⟩ => ⟨S_, .f32⟩
  | .hbm, ⟨91, _⟩ => ⟨S32768x2048, .f32⟩
  | .hbm, ⟨92, _⟩ => ⟨S32768x2048, .i1⟩
  | .hbm, ⟨93, _⟩ => ⟨S_, .f32⟩
  | .hbm, ⟨94, _⟩ => ⟨S32768x2048, .f32⟩
  | .hbm, ⟨95, _⟩ => ⟨S32768x2048, .f32⟩
  | .hbm, ⟨96, _⟩ => ⟨S32768x2048, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_cst_2 : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_3 : Ref sig .tc := ⟨.hbm, 30, rfl⟩
abbrev main_v14 : Ref sig .tc := ⟨.hbm, 31, rfl⟩
abbrev main_v15 : Ref sig .tc := ⟨.hbm, 32, rfl⟩
abbrev main_cst_4 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_5 : Ref sig .tc := ⟨.hbm, 38, rfl⟩
abbrev main_v20 : Ref sig .tc := ⟨.hbm, 39, rfl⟩
abbrev main_cst_6 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_7 : Ref sig .tc := ⟨.hbm, 45, rfl⟩
abbrev main_cst_8 : Ref sig .tc := ⟨.hbm, 46, rfl⟩
abbrev main_call4_v0 : Ref sig .tc := ⟨.hbm, 47, rfl⟩
abbrev main_call4_v1 : Ref sig .tc := ⟨.hbm, 48, rfl⟩
abbrev main_call4_v2 : Ref sig .tc := ⟨.hbm, 49, rfl⟩
abbrev main_call4_v3 : Ref sig .tc := ⟨.hbm, 50, rfl⟩
abbrev main_call4_v4 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_cst_9 : Ref sig .tc := ⟨.hbm, 60, rfl⟩
abbrev main_v33 : Ref sig .tc := ⟨.hbm, 61, rfl⟩
abbrev main_v34 : Ref sig .tc := ⟨.hbm, 62, rfl⟩
abbrev main_cst_10 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_cst_11 : Ref sig .tc := ⟨.hbm, 68, rfl⟩
abbrev main_v39 : Ref sig .tc := ⟨.hbm, 69, rfl⟩
abbrev main_cst_12 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_cst_13 : Ref sig .tc := ⟨.hbm, 75, rfl⟩
abbrev main_cst_14 : Ref sig .tc := ⟨.hbm, 76, rfl⟩
abbrev main_call7_v0 : Ref sig .tc := ⟨.hbm, 77, rfl⟩
abbrev main_call7_v1 : Ref sig .tc := ⟨.hbm, 78, rfl⟩
abbrev main_call7_v2 : Ref sig .tc := ⟨.hbm, 79, rfl⟩
abbrev main_call7_v3 : Ref sig .tc := ⟨.hbm, 80, rfl⟩
abbrev main_call7_v4 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_cst_15 : Ref sig .tc := ⟨.hbm, 90, rfl⟩
abbrev main_v52 : Ref sig .tc := ⟨.hbm, 91, rfl⟩
abbrev main_v53 : Ref sig .tc := ⟨.hbm, 92, rfl⟩
abbrev main_cst_16 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩

abbrev nD : Nat := 1
abbrev τ : Topo := Topo.v7x

variable {F : FTy → Type} [FloatOps F]

class Facts₀ : Prop where
  reducesTo_S2048x1024_S_d0_1 : S2048x1024.ReducesTo [0, 1] S_
  h_S_ : 0 < S_.numel
  bcast_S_S2048x1024 : S_.BroadcastsInDim S2048x1024 (![] : Fin 0 → Fin S2048x1024.rank)
  transposes_S2048x1024_S1024x2048_1_0 : S2048x1024.Transposes [1, 0] S1024x2048
  bcast_S2048_S1x2048_1 : S2048.BroadcastsInDim S1x2048 (![1] : Fin 1 → Fin S1x2048.rank)
  bcast_S1x2048_S32768x2048_0_1 : S1x2048.BroadcastsInDim S32768x2048 (![0, 1] : Fin 2 → Fin S32768x2048.rank)
  bcast_S_S32768x2048 : S_.BroadcastsInDim S32768x2048 (![] : Fin 0 → Fin S32768x2048.rank)
  reducesTo_S2048x2048_S_d0_1 : S2048x2048.ReducesTo [0, 1] S_
  bcast_S_S2048x2048 : S_.BroadcastsInDim S2048x2048 (![] : Fin 0 → Fin S2048x2048.rank)
  transposes_S2048x2048_S2048x2048_1_0 : S2048x2048.Transposes [1, 0] S2048x2048
  dot_S32768x1024_S1024x2048_S32768x2048_1_0_0_1_n_n_wf : DotDims.WF S32768x1024 S1024x2048 S32768x2048 [1] [0] [0] [1] [] []
  dot_S32768x2048_S2048x2048_S32768x2048_1_0_0_1_n_n_wf : DotDims.WF S32768x2048 S2048x2048 S32768x2048 [1] [0] [0] [1] [] []

variable [Facts₀]

def dot_S32768x1024_S1024x2048_S32768x2048_1_0_0_1_n_n : DotDims S32768x1024 S1024x2048 S32768x2048 where
  lhsContracting := [1]
  rhsContracting := [0]
  lhsNonContracting := [0]
  rhsNonContracting := [1]
  lhsBatch := []
  rhsBatch := []
  wf := dot_S32768x1024_S1024x2048_S32768x2048_1_0_0_1_n_n_wf
def dot_S32768x2048_S2048x2048_S32768x2048_1_0_0_1_n_n : DotDims S32768x2048 S2048x2048 S32768x2048 where
  lhsContracting := [1]
  rhsContracting := [0]
  lhsNonContracting := [0]
  rhsNonContracting := [1]
  lhsBatch := []
  rhsBatch := []
  wf := dot_S32768x2048_S2048x2048_S32768x2048_1_0_0_1_n_n_wf

class Facts : Prop extends Facts₀ where

variable [Facts]
-- ==== Proof.Spec.lean ====
/-
  The network both programs compute, as whole-array terms.

  A weight matrix `W` of shape `[A, B]` is quantized symmetrically to the integer range `[-n, n]`: with the scale
  `s = max |W| / n` (the maximum taken over the whole matrix, started from -∞), every entry becomes
  `min n (max (-n) (round (W / s))) · s`; the layer then uses the transposed matrix `[B, A]` (`quantT`).
  A layer maps `X : [N, K]`, a transposed weight `w : [K, M]` and a bias `b : [M]` to
  `h = X · w + b` (the bias repeated over the rows, `affine`) followed by the leaky rectifier
  `h ↦ if h ≥ 0 then h else c · h` with the slope `c` the float whose word is `0x3C23D70A` (`leaky`, `layer`).
  Everything is stated for any float instance; the sizes and the side conditions of the array operations are
  parameters, so that either program's own witnesses fit.
-/
import Idealize.ShloMosaic.PureOps.Ideal
import Idealize.ShloMosaic.Lib.ValueIdx

noncomputable section

namespace Cert.Spec

open Idealize.ShloMosaic

variable {F : FTy → Type} [FloatOps F]

/-- The scale of the symmetric quantization of `W` to `[-n, n]`: the largest absolute entry divided by `n`. -/
def qscale {A B : ℕ} (n : BitVec 32)
    (hr : (⟨2, ![A, B]⟩ : Shape).ReducesTo [0, 1] ⟨0, ![]⟩) (hp : 0 < (⟨0, ![]⟩ : Shape).numel)
    (W : FVec F ⟨2, ![A, B]⟩ .f32) : FVec F ⟨0, ![]⟩ .f32 :=
  Host.divf (Host.reduce FloatOps.maximumf (Host.absf W) (constant ⟨0, ![]⟩ .f32 0xFF800000#32) hr hp) (constant ⟨0, ![]⟩ .f32 n)

/-- The quantized weight, transposed: entry `(j, i)` is `min n (max nneg (round (W (i, j) / s))) · s`. -/
def quantT {A B : ℕ} (n nneg : BitVec 32)
    (hr : (⟨2, ![A, B]⟩ : Shape).ReducesTo [0, 1] ⟨0, ![]⟩) (hp : 0 < (⟨0, ![]⟩ : Shape).numel)
    (hb : (⟨0, ![]⟩ : Shape).BroadcastsInDim ⟨2, ![A, B]⟩ (![] : Fin 0 → Fin 2))
    (ht : (⟨2, ![A, B]⟩ : Shape).Transposes [1, 0] ⟨2, ![B, A]⟩)
    (W : FVec F ⟨2, ![A, B]⟩ .f32) : FVec F ⟨2, ![B, A]⟩ .f32 :=
  transpose ⟨2, ![B, A]⟩ [1, 0]
    (mulf
      (minimumf (broadcastInDim ⟨2, ![A, B]⟩ ![] hb (id (constant ⟨0, ![]⟩ .f32 n)))
        (maximumf (broadcastInDim ⟨2, ![A, B]⟩ ![] hb (id (constant ⟨0, ![]⟩ .f32 nneg)))
          (Host.roundeven (Host.divf W (broadcastInDim ⟨2, ![A, B]⟩ ![] hb (qscale n hr hp W))))))
      (broadcastInDim ⟨2, ![A, B]⟩ ![] hb (qscale n hr hp W)))
    ht

/-- `X · w + b`, the bias made a row and repeated over the rows. -/
def affine {N K M : ℕ} (d : DotDims ⟨2, ![N, K]⟩ ⟨2, ![K, M]⟩ ⟨2, ![N, M]⟩)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2))
    (X : FVec F ⟨2, ![N, K]⟩ .f32) (w : FVec F ⟨2, ![K, M]⟩ .f32) (b : FVec F ⟨1, ![M]⟩ .f32) : FVec F ⟨2, ![N, M]⟩ .f32 :=
  addf (Host.dotGeneral d none X w) (broadcastInDim ⟨2, ![N, M]⟩ ![0, 1] h2 (broadcastInDim ⟨2, ![1, M]⟩ ![1] h1 b))

/-- The leaky rectifier, entry by entry: `h` where `h ≥ 0`, else the slope times `h`. -/
def leaky {N M : ℕ} (h0 : (⟨0, ![]⟩ : Shape).BroadcastsInDim ⟨2, ![N, M]⟩ (![] : Fin 0 → Fin 2))
    (h : FVec F ⟨2, ![N, M]⟩ .f32) : FVec F ⟨2, ![N, M]⟩ .f32 :=
  select (cmpf .oge h (broadcastInDim ⟨2, ![N, M]⟩ ![] h0 (constant ⟨0, ![]⟩ .f32 0x00000000#32))) h
    (mulf (broadcastInDim ⟨2, ![N, M]⟩ ![] h0 (constant ⟨0, ![]⟩ .f32 0x3C23D70A#32)) h)

/-- One layer: the rectified affine map. -/
def layer {N K M : ℕ} (d : DotDims ⟨2, ![N, K]⟩ ⟨2, ![K, M]⟩ ⟨2, ![N, M]⟩)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2))
    (h0 : (⟨0, ![]⟩ : Shape).BroadcastsInDim ⟨2, ![N, M]⟩ (![] : Fin 0 → Fin 2))
    (X : FVec F ⟨2, ![N, K]⟩ .f32) (w : FVec F ⟨2, ![K, M]⟩ .f32) (b : FVec F ⟨1, ![M]⟩ .f32) : FVec F ⟨2, ![N, M]⟩ .f32 :=
  leaky h0 (affine d h1 h2 X w b)

end Cert.Spec

end
-- ==== Proof.Entry.lean ====
/-
  What each region of the kernel program finds in its three input arrays.

  Before region 0 the host operations narrow the input `x` to bf16, quantize the first weight to `[-127, 127]`,
  transpose and narrow it, and reshape the first bias `[2048]` to one row `[1, 2048]`. Before region 1 (and 2) they do
  the same to the second (third) weight with range `[-7, 7]` and to its bias, while the region's first input is the
  array the region before left. No host operation and no region writes an argument, so each quantization reads
  the weight as launched. The result array of the program is what the last region leaves in its output.
-/
import proofs.«165135_j85959475462477_1_alg».proof.Proof.Gen.KernelIdeal.Frame
import proofs.«165135_j85959475462477_1_alg».proof.Proof.Spec
import Idealize.ShloMosaic.Lib.StableHlo.Run

set_option maxRecDepth 16384

noncomputable section

namespace Cert.KernelIdeal.Entry

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## Region 0 -/

theorem x0 (c : Dev nD) : V5 m ρ c main_v0 = truncf .bf16 (m ((c : Thread nD τ).loc main_arg0)) bitsLt_bf16_f32 := by
  show StableHlo.after hostOps0_4 (StableHlo.after hostOps0_3 (StableHlo.after hostOps0_2 (StableHlo.after hostOps0_1 (StableHlo.after hostOps0 (W0 m ρ c))))) (Proc.devRef .tc main_v0) = _
  after_results_simp <;> rfl

theorem w0 (c : Dev nD) : V5 m ρ c main_v11 = truncf .bf16 (Spec.quantT 0x42FE0000#32 0xC2FE0000#32
      reducesTo_S2048x1024_S_d0_1 h_S_ bcast_S_S2048x1024 transposes_S2048x1024_S1024x2048_1_0 (m ((c : Thread nD τ).loc main_arg1))) bitsLt_bf16_f32 := by
  show StableHlo.after hostOps0_4 (StableHlo.after hostOps0_3 (StableHlo.after hostOps0_2 (StableHlo.after hostOps0_1 (StableHlo.after hostOps0 (W0 m ρ c))))) (Proc.devRef .tc main_v11) = _
  after_results_simp <;> rfl

theorem b0 (c : Dev nD) : V5 m ρ c main_v12 = shapeCast S1x2048 (m ((c : Thread nD τ).loc main_arg2)) shapeCasts_S2048_S1x2048 := by
  show StableHlo.after hostOps0_4 (StableHlo.after hostOps0_3 (StableHlo.after hostOps0_2 (StableHlo.after hostOps0_1 (StableHlo.after hostOps0 (W0 m ρ c))))) (Proc.devRef .tc main_v12) = _
  after_results_simp <;> rfl

/-! ## The arguments at the later boundaries -/

theorem W6_arg3 (c : Dev nD) : W6 m ρ c (Proc.devRef .tc main_arg3) = m ((c : Thread nD τ).loc main_arg3) := by
  rw [W6_of_ne m ρ c main_arg3 (by decide)]
  show StableHlo.after hostOps0_4 (StableHlo.after hostOps0_3 (StableHlo.after hostOps0_2 (StableHlo.after hostOps0_1 (StableHlo.after hostOps0 (W0 m ρ c))))) (Proc.devRef .tc main_arg3) = _
  after_results_simp <;> rfl

theorem W6_arg4 (c : Dev nD) : W6 m ρ c (Proc.devRef .tc main_arg4) = m ((c : Thread nD τ).loc main_arg4) := by
  rw [W6_of_ne m ρ c main_arg4 (by decide)]
  show StableHlo.after hostOps0_4 (StableHlo.after hostOps0_3 (StableHlo.after hostOps0_2 (StableHlo.after hostOps0_1 (StableHlo.after hostOps0 (W0 m ρ c))))) (Proc.devRef .tc main_arg4) = _
  after_results_simp <;> rfl

theorem W6_arg5 (c : Dev nD) : W6 m ρ c (Proc.devRef .tc main_arg5) = m ((c : Thread nD τ).loc main_arg5) := by
  rw [W6_of_ne m ρ c main_arg5 (by decide)]
  show StableHlo.after hostOps0_4 (StableHlo.after hostOps0_3 (StableHlo.after hostOps0_2 (StableHlo.after hostOps0_1 (StableHlo.after hostOps0 (W0 m ρ c))))) (Proc.devRef .tc main_arg5) = _
  after_results_simp <;> rfl

theorem W6_arg6 (c : Dev nD) : W6 m ρ c (Proc.devRef .tc main_arg6) = m ((c : Thread nD τ).loc main_arg6) := by
  rw [W6_of_ne m ρ c main_arg6 (by decide)]
  show StableHlo.after hostOps0_4 (StableHlo.after hostOps0_3 (StableHlo.after hostOps0_2 (StableHlo.after hostOps0_1 (StableHlo.after hostOps0 (W0 m ρ c))))) (Proc.devRef .tc main_arg6) = _
  after_results_simp <;> rfl

theorem W12_arg5 (c : Dev nD) : W12 m ρ c (Proc.devRef .tc main_arg5) = m ((c : Thread nD τ).loc main_arg5) := by
  rw [W12_of_ne m ρ c main_arg5 (by decide)]
  show StableHlo.after hostOps1_4 (StableHlo.after hostOps1_3 (StableHlo.after hostOps1_2 (StableHlo.after hostOps1_1 (StableHlo.after hostOps1 (W6 m ρ c))))) (Proc.devRef .tc main_arg5) = _
  after_results_simp
  exact W6_arg5 m ρ c

theorem W12_arg6 (c : Dev nD) : W12 m ρ c (Proc.devRef .tc main_arg6) = m ((c : Thread nD τ).loc main_arg6) := by
  rw [W12_of_ne m ρ c main_arg6 (by decide)]
  show StableHlo.after hostOps1_4 (StableHlo.after hostOps1_3 (StableHlo.after hostOps1_2 (StableHlo.after hostOps1_1 (StableHlo.after hostOps1 (W6 m ρ c))))) (Proc.devRef .tc main_arg6) = _
  after_results_simp
  exact W6_arg6 m ρ c

/-! ## Region 1 -/

theorem x1 (c : Dev nD) : V11 m ρ c main_v13 = (dat0 (V5 m ρ) c).arrAt 3 cfg0.N := by
  show StableHlo.after hostOps1_4 (StableHlo.after hostOps1_3 (StableHlo.after hostOps1_2 (StableHlo.after hostOps1_1 (StableHlo.after hostOps1 (W6 m ρ c))))) (Proc.devRef .tc main_v13) = _
  after_results_simp
  exact W6_arr m ρ c 3

theorem w1 (c : Dev nD) : V11 m ρ c main_v24 = truncf .bf16 (Spec.quantT 0x40E00000#32 0xC0E00000#32
      reducesTo_S2048x2048_S_d0_1 h_S_ bcast_S_S2048x2048 transposes_S2048x2048_S2048x2048_1_0 (m ((c : Thread nD τ).loc main_arg3))) bitsLt_bf16_f32 := by
  show StableHlo.after hostOps1_4 (StableHlo.after hostOps1_3 (StableHlo.after hostOps1_2 (StableHlo.after hostOps1_1 (StableHlo.after hostOps1 (W6 m ρ c))))) (Proc.devRef .tc main_v24) = _
  after_results_simp
  rw [W6_arg3]
  rfl

theorem b1 (c : Dev nD) : V11 m ρ c main_v25 = shapeCast S1x2048 (m ((c : Thread nD τ).loc main_arg4)) shapeCasts_S2048_S1x2048 := by
  show StableHlo.after hostOps1_4 (StableHlo.after hostOps1_3 (StableHlo.after hostOps1_2 (StableHlo.after hostOps1_1 (StableHlo.after hostOps1 (W6 m ρ c))))) (Proc.devRef .tc main_v25) = _
  after_results_simp
  rw [W6_arg4]
  rfl

/-! ## Region 2 -/

theorem x2 (c : Dev nD) : V17 m ρ c main_v26 = (dat1 (V11 m ρ) c).arrAt 3 cfg1.N := by
  show StableHlo.after hostOps2_4 (StableHlo.after hostOps2_3 (StableHlo.after hostOps2_2 (StableHlo.after hostOps2_1 (StableHlo.after hostOps2 (W12 m ρ c))))) (Proc.devRef .tc main_v26) = _
  after_results_simp
  exact W12_arr m ρ c 3

theorem w2 (c : Dev nD) : V17 m ρ c main_v37 = truncf .bf16 (Spec.quantT 0x40E00000#32 0xC0E00000#32
      reducesTo_S2048x2048_S_d0_1 h_S_ bcast_S_S2048x2048 transposes_S2048x2048_S2048x2048_1_0 (m ((c : Thread nD τ).loc main_arg5))) bitsLt_bf16_f32 := by
  show StableHlo.after hostOps2_4 (StableHlo.after hostOps2_3 (StableHlo.after hostOps2_2 (StableHlo.after hostOps2_1 (StableHlo.after hostOps2 (W12 m ρ c))))) (Proc.devRef .tc main_v37) = _
  after_results_simp
  rw [W12_arg5]
  rfl

theorem b2 (c : Dev nD) : V17 m ρ c main_v38 = shapeCast S1x2048 (m ((c : Thread nD τ).loc main_arg6)) shapeCasts_S2048_S1x2048 := by
  show StableHlo.after hostOps2_4 (StableHlo.after hostOps2_3 (StableHlo.after hostOps2_2 (StableHlo.after hostOps2_1 (StableHlo.after hostOps2 (W12 m ρ c))))) (Proc.devRef .tc main_v38) = _
  after_results_simp
  rw [W12_arg6]
  rfl

/-! ## The result -/

theorem result (c : Dev nD) : W18 m ρ c (Proc.devRef .tc main_v39) = (dat2 (V17 m ρ) c).arrAt 3 cfg2.N :=
  W18_arr m ρ c 3

end Cert.KernelIdeal.Entry

end
-- ==== Proof.LibAffineRows.lean ====
/-
  A dense layer read row by row, at the ideal values.

  A kernel that tiles the rows of a matrix `X` computes, on each tile `xb`, the product `xb · w` by a matrix unit
  (operands narrowed to bf16, accumulated into zeros) and adds a bias row kept as a `[1, M]` block; the plain program
  computes `X · w` by one `dot_general` and adds the bias vector `[M]` broadcast over the rows. Over the extended reals
  narrowing is the identity and both products are the textbook sum over the contracted index, so row `r` of the tile's
  result is row `n r` of the whole result as soon as row `r` of the tile is row `n r` of `X`
  (`affine_rows`), and the same after a `tanh` (`tanh_affine_rows`). Nothing here depends on the sizes.
-/
import Idealize.ShloMosaic.Lib.ValueIdx
import Idealize.ShloMosaic.Lib.ValueLayout
import Idealize.ShloMosaic.Lib.Pipeline.Value
import Idealize.ShloMosaic.PureOps.Ideal.Laws

noncomputable section

namespace Cert.Lib

open Idealize.ShloMosaic Idealize.ShloMosaic.ValueIdx

/-- The dimension numbers `d` describe the plain product of an `[R, K]` by a `[K, M]` matrix: one contracted index of
    extent `K`, which is the left operand's column and the right operand's row; the result's row is the left operand's
    row and its column the right operand's column. -/
structure PlainDot {R K M : ℕ} (d : DotDims ⟨2, ![R, K]⟩ ⟨2, ![K, M]⟩ ⟨2, ![R, M]⟩) : Prop where
  rank : d.contr.rank = 1
  size : d.contr.size ⟨0, by omega⟩ = K
  l0 : ∀ (i : (⟨2, ![R, M]⟩ : Shape).Idx) (q : d.contr.Idx), (d.lhsIdx i q 0).val = (i 0).val
  l1 : ∀ (i : (⟨2, ![R, M]⟩ : Shape).Idx) (q : d.contr.Idx), (d.lhsIdx i q 1).val = (q ⟨0, by omega⟩).val
  r0 : ∀ (i : (⟨2, ![R, M]⟩ : Shape).Idx) (q : d.contr.Idx), (d.rhsIdx i q 0).val = (q ⟨0, by omega⟩).val
  r1 : ∀ (i : (⟨2, ![R, M]⟩ : Shape).Idx) (q : d.contr.Idx), (d.rhsIdx i q 1).val = (i 1).val

variable {R K M : ℕ}

/-- The sum over the record's contraction index is the sum over `k < K` of `x (r, k) · w (k, c)`. -/
theorem PlainDot.sum_eq {d : DotDims ⟨2, ![R, K]⟩ ⟨2, ![K, M]⟩ ⟨2, ![R, M]⟩} (h : PlainDot d)
    (x : (⟨2, ![R, K]⟩ : Shape).Idx → EReal) (w : (⟨2, ![K, M]⟩ : Shape).Idx → EReal) (r : Fin R) (c : Fin M) :
    ∑ k : d.contr.Idx, x (d.lhsIdx (ix2 r c) k) * w (d.rhsIdx (ix2 r c) k) = ∑ k : Fin K, x (ix2 r k) * w (ix2 k c) := by
  rw [← Equiv.sum_comp (contrEquiv1 d K h.rank h.size).symm]
  refine Finset.sum_congr rfl fun k _ => ?_
  have hk := contrEquiv1_symm_val d K h.rank h.size k
  have el : d.lhsIdx (ix2 r c) ((contrEquiv1 d K h.rank h.size).symm k) = ix2 r k := funext fun a => Fin.ext (by
    match a with
    | ⟨0, _⟩ => exact h.l0 _ _
    | ⟨1, _⟩ => exact (h.l1 _ _).trans hk)
  have er : d.rhsIdx (ix2 r c) ((contrEquiv1 d K h.rank h.size).symm k) = ix2 k c := funext fun a => Fin.ext (by
    match a with
    | ⟨0, _⟩ => exact (h.r0 _ _).trans hk
    | ⟨1, _⟩ => exact h.r1 _ _)
  rw [el, er]

/-- A matrix unit's product of two narrowed operands into zeros, at `(r, c)`: the textbook sum. -/
theorem matmul_zero_apply {d : DotDims ⟨2, ![R, K]⟩ ⟨2, ![K, M]⟩ ⟨2, ![R, M]⟩} (h : PlainDot d)
    (x : FVec Ideal ⟨2, ![R, K]⟩ .f32) (w : FVec Ideal ⟨2, ![K, M]⟩ .f32) (ht : FTy.bits .bf16 < FTy.bits .f32)
    (r : Fin R) (c : Fin M) :
    matmul d none (truncf .bf16 x ht) (truncf .bf16 w ht) (constant ⟨2, ![R, M]⟩ .f32 0x00000000#32) (ix2 r c)
      = ∑ k : Fin K, x (ix2 r k) * w (ix2 k c) := by
  simp only [matmul]
  rw [Ideal.matmul_constant_zero_apply]
  exact h.sum_eq (fun i => x i) (fun i => w i) r c

/-- The host's `dot_general` at `(r, c)`: the same sum. -/
theorem dotGeneral_apply {d : DotDims ⟨2, ![R, K]⟩ ⟨2, ![K, M]⟩ ⟨2, ![R, M]⟩} (h : PlainDot d)
    (x : FVec Ideal ⟨2, ![R, K]⟩ .f32) (w : FVec Ideal ⟨2, ![K, M]⟩ .f32) (r : Fin R) (c : Fin M) :
    Host.dotGeneral d none x w (ix2 r c) = ∑ k : Fin K, x (ix2 r k) * w (ix2 k c) := by
  simp only [Host.dotGeneral]
  rw [Ideal.dotGeneral_apply]
  exact h.sum_eq (fun i => x i) (fun i => w i) r c

/-- A bias vector `[M]` made a row `[1, M]` and then broadcast over `N` rows reads, at `(n, q)`, the vector at `q`. -/
theorem bias_rows_apply {N : ℕ} (b : FVec Ideal ⟨1, ![M]⟩ .f32)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (n : Fin N) (q : Fin M) :
    broadcastInDim ⟨2, ![N, M]⟩ ![0, 1] h2 (broadcastInDim ⟨2, ![1, M]⟩ ![1] h1 b) (ix2 n q) = b (ix1 q) := by
  rw [broadcastInDim_apply _ h2 _ (ix2 n q) (ix2 (0 : Fin 1) q) (fun a => by
    match a with
    | ⟨0, _⟩ => show (0 : ℕ) = if (1 : ℕ) = 1 then 0 else n.val; rw [if_pos rfl]
    | ⟨1, _⟩ => show q.val = if M = 1 then 0 else q.val; split <;> [(have := q.isLt; omega); rfl])]
  exact broadcastInDim_apply _ h1 b (ix2 (0 : Fin 1) q) (ix1 q) (fun a => by
    match a with
    | ⟨0, _⟩ => show q.val = if M = 1 then 0 else q.val; split <;> [(have := q.isLt; omega); rfl])

/-- ROW BY ROW: where row `r` of the tile `xb` is row `n r` of `X` and the bias block's row is the bias vector, the
    tile's `xb · w + bias` at `(r, q)` is the whole `X · w + bias` at `(n r, q)`. -/
theorem affine_rows {N : ℕ}
    {dB : DotDims ⟨2, ![R, K]⟩ ⟨2, ![K, M]⟩ ⟨2, ![R, M]⟩} (hB : PlainDot dB)
    {dW : DotDims ⟨2, ![N, K]⟩ ⟨2, ![K, M]⟩ ⟨2, ![N, M]⟩} (hW : PlainDot dW)
    (xb : FVec Ideal ⟨2, ![R, K]⟩ .f32) (X : FVec Ideal ⟨2, ![N, K]⟩ .f32) (w : FVec Ideal ⟨2, ![K, M]⟩ .f32)
    (b2 : FVec Ideal ⟨2, ![1, M]⟩ .f32) (b : FVec Ideal ⟨1, ![M]⟩ .f32) (n : Fin R → Fin N)
    (hx : ∀ r k, xb (ix2 r k) = X (ix2 (n r) k)) (hb : ∀ q : Fin M, b2 (ix2 (0 : Fin 1) q) = b (ix1 q))
    (ht : FTy.bits .bf16 < FTy.bits .f32) (hsc : (⟨2, ![1, M]⟩ : Shape).ShapeCasts ⟨2, ![1, M]⟩)
    (hbc : (⟨2, ![1, M]⟩ : Shape).Broadcasts ⟨2, ![R, M]⟩)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (r : Fin R) (q : Fin M) :
    addf (matmul dB none (truncf .bf16 xb ht) (truncf .bf16 w ht) (constant ⟨2, ![R, M]⟩ .f32 0x00000000#32))
        (broadcastTo ⟨2, ![R, M]⟩ (shapeCast ⟨2, ![1, M]⟩ b2 hsc) hbc) (ix2 r q)
      = addf (Host.dotGeneral dW none X w) (broadcastInDim ⟨2, ![N, M]⟩ ![0, 1] h2 (broadcastInDim ⟨2, ![1, M]⟩ ![1] h1 b)) (ix2 (n r) q) := by
  rw [addf_apply, addf_apply, matmul_zero_apply hB, dotGeneral_apply hW, bias_rows_apply, broadcastTo_1b_ab_apply,
    shapeCast_self, hb]
  exact congrArg (· + b (ix1 q)) (Finset.sum_congr rfl fun k _ => by rw [hx])

/-- The same after the hyperbolic tangent, the kernel's and the host's being one function of an extended real. -/
theorem tanh_affine_rows {N : ℕ}
    {dB : DotDims ⟨2, ![R, K]⟩ ⟨2, ![K, M]⟩ ⟨2, ![R, M]⟩} (hB : PlainDot dB)
    {dW : DotDims ⟨2, ![N, K]⟩ ⟨2, ![K, M]⟩ ⟨2, ![N, M]⟩} (hW : PlainDot dW)
    (xb : FVec Ideal ⟨2, ![R, K]⟩ .f32) (X : FVec Ideal ⟨2, ![N, K]⟩ .f32) (w : FVec Ideal ⟨2, ![K, M]⟩ .f32)
    (b2 : FVec Ideal ⟨2, ![1, M]⟩ .f32) (b : FVec Ideal ⟨1, ![M]⟩ .f32) (n : Fin R → Fin N)
    (hx : ∀ r k, xb (ix2 r k) = X (ix2 (n r) k)) (hb : ∀ q : Fin M, b2 (ix2 (0 : Fin 1) q) = b (ix1 q))
    (ht : FTy.bits .bf16 < FTy.bits .f32) (hsc : (⟨2, ![1, M]⟩ : Shape).ShapeCasts ⟨2, ![1, M]⟩)
    (hbc : (⟨2, ![1, M]⟩ : Shape).Broadcasts ⟨2, ![R, M]⟩)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (r : Fin R) (q : Fin M) :
    tanh (addf (matmul dB none (truncf .bf16 xb ht) (truncf .bf16 w ht) (constant ⟨2, ![R, M]⟩ .f32 0x00000000#32))
        (broadcastTo ⟨2, ![R, M]⟩ (shapeCast ⟨2, ![1, M]⟩ b2 hsc) hbc)) (ix2 r q)
      = Host.tanh (addf (Host.dotGeneral dW none X w)
          (broadcastInDim ⟨2, ![N, M]⟩ ![0, 1] h2 (broadcastInDim ⟨2, ![1, M]⟩ ![1] h1 b))) (ix2 (n r) q) :=
  congrArg Ideal.tanh (affine_rows hB hW xb X w b2 b n hx hb ht hsc hbc h1 h2 r q)

end Cert.Lib

end
-- ==== Proof.Rows.lean ====
/-
  One row tile of a layer is the rows of the whole layer.

  A kernel instance holds `R` consecutive rows `xb` of the layer's input `X` (row `r` of the tile is row `n r` of
  `X`), the whole transposed weight `wb` and the bias as a one-row block `b2`. It multiplies `xb · wb` on the matrix
  unit into zeros, adds the bias row repeated over the tile's rows, and applies the leaky rectifier entry by entry.
  Over the extended reals the product at `(r, q)` is the sum over the contracted index of `xb (r, k) · wb (k, q)`,
  which is the whole product's sum at `(n r, q)`; the rectifier is applied to equal numbers. So the tile's result at
  `(r, q)` is the layer's at `(n r, q)` (`tile_row`). Narrowing an array to bf16 does not change an extended real,
  so the arrays may be given narrowed.
-/
import proofs.«165135_j85959475462477_1_alg».proof.Proof.LibAffineRows
import proofs.«165135_j85959475462477_1_alg».proof.Proof.Spec

noncomputable section

namespace Cert.Rows

open Idealize.ShloMosaic Idealize.ShloMosaic.ValueIdx Cert.Lib

variable {R K M : ℕ}

/-- Dimension numbers whose lists are those of a plain matrix product (contract the left operand's columns with the
    right operand's rows, no batch axis) describe the plain product. -/
theorem plainDot_of_lists (d : DotDims ⟨2, ![R, K]⟩ ⟨2, ![K, M]⟩ ⟨2, ![R, M]⟩)
    (hlc : d.lhsContracting = [1]) (hrc : d.rhsContracting = [0]) (hln : d.lhsNonContracting = [0])
    (hrn : d.rhsNonContracting = [1]) (hlb : d.lhsBatch = []) (hrb : d.rhsBatch = []) : PlainDot d := by
  have hrank : d.contr.rank = 1 := by rw [d.rank_contr, hlc]; rfl
  have key : ∀ (i : (⟨2, ![R, M]⟩ : Shape).Idx) (p q : ℕ) (hp : p < 2) (hq : q < 2), p = q → (i ⟨p, hp⟩).val = (i ⟨q, hq⟩).val :=
    fun i p q hp hq h => by subst h; rfl
  refine ⟨hrank, ?_, ?_, ?_, ?_, ?_⟩
  · have := d.size_contr 0 (by rw [hlc]; exact Nat.one_pos)
    simp only [hlc, List.getElem_cons_zero] at this
    exact this
  · intro i q
    have hb : (0 : Fin 2) ∉ d.lhsBatch := by rw [hlb]; exact List.not_mem_nil
    have hn : (0 : Fin 2) ∈ d.lhsNonContracting := by rw [hln]; exact List.mem_singleton.mpr rfl
    unfold DotDims.lhsIdx
    rw [dif_neg hb, dif_pos hn]
    simp only [Fin.val_cast]
    exact key i _ _ _ _ (by simp [hlb, hln])
  · intro i q
    exact d.lhsIdx_val_of_single hlc i q
  · intro i q
    exact d.rhsIdx_val_of_single hrc i q
  · intro i q
    have hb : (1 : Fin 2) ∉ d.rhsBatch := by rw [hrb]; exact List.not_mem_nil
    have hn : (1 : Fin 2) ∈ d.rhsNonContracting := by rw [hrn]; exact List.mem_singleton.mpr rfl
    unfold DotDims.rhsIdx
    rw [dif_neg hb, dif_pos hn]
    simp only [Fin.val_cast]
    exact key i _ _ _ _ (by simp [hlb, hln, hrn])

/-- The affine part of a tile: at `(r, q)` the tile's product into zeros plus the bias row is the whole
    `X · w + b` at `(n r, q)`, both being the sum over `k` of `X (n r, k) · w (k, q)` plus `b q`. -/
theorem tile_affine {N : ℕ}
    {dB : DotDims ⟨2, ![R, K]⟩ ⟨2, ![K, M]⟩ ⟨2, ![R, M]⟩} (hB : PlainDot dB)
    {dW : DotDims ⟨2, ![N, K]⟩ ⟨2, ![K, M]⟩ ⟨2, ![N, M]⟩} (hW : PlainDot dW)
    (xb : FVec Ideal ⟨2, ![R, K]⟩ .bf16) (wb : FVec Ideal ⟨2, ![K, M]⟩ .bf16) (b2 : FVec Ideal ⟨2, ![1, M]⟩ .f32)
    (X : FVec Ideal ⟨2, ![N, K]⟩ .f32) (w : FVec Ideal ⟨2, ![K, M]⟩ .f32) (b : FVec Ideal ⟨1, ![M]⟩ .f32) (n : Fin R → Fin N)
    (hx : ∀ r k, (xb (ix2 r k) : EReal) = X (ix2 (n r) k)) (hw : ∀ k q, (wb (ix2 k q) : EReal) = w (ix2 k q))
    (hb : ∀ q : Fin M, b2 (ix2 (0 : Fin 1) q) = b (ix1 q))
    (hsx : (⟨2, ![R, K]⟩ : Shape).ShapeCasts ⟨2, ![R, K]⟩) (hsw : (⟨2, ![K, M]⟩ : Shape).ShapeCasts ⟨2, ![K, M]⟩)
    (hsc : (⟨2, ![1, M]⟩ : Shape).ShapeCasts ⟨2, ![1, M]⟩) (hbc : (⟨2, ![1, M]⟩ : Shape).Broadcasts ⟨2, ![R, M]⟩)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (r : Fin R) (q : Fin M) :
    addf (matmul dB none (shapeCast ⟨2, ![R, K]⟩ xb hsx) (shapeCast ⟨2, ![K, M]⟩ wb hsw) (constant ⟨2, ![R, M]⟩ .f32 0x00000000#32))
        (broadcastTo ⟨2, ![R, M]⟩ (shapeCast ⟨2, ![1, M]⟩ b2 hsc) hbc) (ix2 r q)
      = Spec.affine dW h1 h2 X w b (ix2 (n r) q) := by
  unfold Spec.affine
  rw [addf_apply, addf_apply, shapeCast_self, shapeCast_self, shapeCast_self]
  simp only [matmul]
  rw [Ideal.matmul_constant_zero_apply, hB.sum_eq (fun i => xb i) (fun i => wb i) r q, Cert.Lib.dotGeneral_apply hW,
    Cert.Lib.bias_rows_apply, broadcastTo_1b_ab_apply, hb]
  exact congrArg (· + b (ix1 q)) (Finset.sum_congr rfl fun k _ => by rw [hx, hw])

/-- The leaky rectifier of a tile, entry by entry, against the layer's: equal entries go to equal entries. -/
theorem leaky_entry {N : ℕ} (h0 : (⟨0, ![]⟩ : Shape).BroadcastsInDim ⟨2, ![N, M]⟩ (![] : Fin 0 → Fin 2))
    (a : FVec Ideal ⟨2, ![R, M]⟩ .f32) (A : FVec Ideal ⟨2, ![N, M]⟩ .f32) (i : (⟨2, ![R, M]⟩ : Shape).Idx)
    (j : (⟨2, ![N, M]⟩ : Shape).Idx) (h : a i = A j) :
    select (cmpf .oge a (broadcast ⟨2, ![R, M]⟩ (Scalar.ofBits .f32 0x00000000#32))) a
        (mulf (broadcast ⟨2, ![R, M]⟩ (Scalar.ofBits .f32 0x3C23D70A#32)) a) i
      = Spec.leaky h0 A j := by
  unfold Spec.leaky
  rw [select_apply, select_apply, cmpf_apply, cmpf_apply, mulf_apply, mulf_apply, h]
  rfl

/-- ROW BY ROW: the tile's rectified `xb · wb + bias` at `(r, q)` is the whole layer at `(n r, q)`. -/
theorem tile_row {N : ℕ}
    {dB : DotDims ⟨2, ![R, K]⟩ ⟨2, ![K, M]⟩ ⟨2, ![R, M]⟩} (hB : PlainDot dB)
    {dW : DotDims ⟨2, ![N, K]⟩ ⟨2, ![K, M]⟩ ⟨2, ![N, M]⟩} (hW : PlainDot dW)
    (xb : FVec Ideal ⟨2, ![R, K]⟩ .bf16) (wb : FVec Ideal ⟨2, ![K, M]⟩ .bf16) (b2 : FVec Ideal ⟨2, ![1, M]⟩ .f32)
    (X : FVec Ideal ⟨2, ![N, K]⟩ .f32) (w : FVec Ideal ⟨2, ![K, M]⟩ .f32) (b : FVec Ideal ⟨1, ![M]⟩ .f32) (n : Fin R → Fin N)
    (hx : ∀ r k, (xb (ix2 r k) : EReal) = X (ix2 (n r) k)) (hw : ∀ k q, (wb (ix2 k q) : EReal) = w (ix2 k q))
    (hb : ∀ q : Fin M, b2 (ix2 (0 : Fin 1) q) = b (ix1 q))
    (hsx : (⟨2, ![R, K]⟩ : Shape).ShapeCasts ⟨2, ![R, K]⟩) (hsw : (⟨2, ![K, M]⟩ : Shape).ShapeCasts ⟨2, ![K, M]⟩)
    (hsc : (⟨2, ![1, M]⟩ : Shape).ShapeCasts ⟨2, ![1, M]⟩) (hbc : (⟨2, ![1, M]⟩ : Shape).Broadcasts ⟨2, ![R, M]⟩)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2))
    (h0 : (⟨0, ![]⟩ : Shape).BroadcastsInDim ⟨2, ![N, M]⟩ (![] : Fin 0 → Fin 2)) (r : Fin R) (q : Fin M) :
    select (cmpf .oge
          (addf (matmul dB none (shapeCast ⟨2, ![R, K]⟩ xb hsx) (shapeCast ⟨2, ![K, M]⟩ wb hsw) (constant ⟨2, ![R, M]⟩ .f32 0x00000000#32))
            (broadcastTo ⟨2, ![R, M]⟩ (shapeCast ⟨2, ![1, M]⟩ b2 hsc) hbc))
          (broadcast ⟨2, ![R, M]⟩ (Scalar.ofBits .f32 0x00000000#32)))
        (addf (matmul dB none (shapeCast ⟨2, ![R, K]⟩ xb hsx) (shapeCast ⟨2, ![K, M]⟩ wb hsw) (constant ⟨2, ![R, M]⟩ .f32 0x00000000#32))
          (broadcastTo ⟨2, ![R, M]⟩ (shapeCast ⟨2, ![1, M]⟩ b2 hsc) hbc))
        (mulf (broadcast ⟨2, ![R, M]⟩ (Scalar.ofBits .f32 0x3C23D70A#32))
          (addf (matmul dB none (shapeCast ⟨2, ![R, K]⟩ xb hsx) (shapeCast ⟨2, ![K, M]⟩ wb hsw) (constant ⟨2, ![R, M]⟩ .f32 0x00000000#32))
            (broadcastTo ⟨2, ![R, M]⟩ (shapeCast ⟨2, ![1, M]⟩ b2 hsc) hbc))) (ix2 r q)
      = Spec.layer dW h1 h2 h0 X w b (ix2 (n r) q) :=
  leaky_entry h0 _ _ _ _ (tile_affine hB hW xb wb b2 X w b n hx hw hb hsx hsw hsc hbc h1 h2 r q)

end Cert.Rows

end
-- ==== Proof.Region0.lean ====
/-
  Region 0 of the kernel program computes layer 0 on row tiles.

  The region's grid has 64 points; point `t` is handed rows `512 t … 512 t + 511` of the region's input array
  (a `[32768, 1024]` array of bf16-narrowed numbers), the whole transposed weight `[1024, 2048]` and the bias as a one-row block,
  and writes back rows `512 t … 512 t + 511` of the `[32768, 2048]` output. What it writes at row `r`, column `q` of the
  tile is the layer's value at row `512 t + r`, column `q` (the row lemma); the 64 tiles cover the output array. Hence
  the output array after the region is the layer of the arrays the region found, entry by entry (`value`).
-/
import proofs.«165135_j85959475462477_1_alg».proof.Proof.Gen.KernelIdeal.Frame
import proofs.«165135_j85959475462477_1_alg».proof.Proof.Rows
import Idealize.ShloMosaic.Lib.Pipeline.Value

set_option maxRecDepth 16384

noncomputable section

namespace Cert.KernelIdeal.Region0

open Cert.KernelIdeal Cert.KernelIdeal.Gen Cert.Lib Cert.Rows
open Idealize.ShloMosaic Idealize.ShloMosaic.TcCoe Idealize.ShloMosaic.ValueIdx Idealize.SL.Sem
open Idealize.ShloMosaic.Pipeline (Dat Cfg Window)

-- the arrays as the region finds them: a parameter
variable (V : (c : Dev nD) → (b : Ref sig .tc) → Buf (Elt Ideal) ((c : Thread nD τ).loc b))

theorem origin : (![0, 0] : Fin 2 → Nat) = fun _ => 0 := funext fun a => by fin_cases a <;> rfl

/-- The index maps over the grid: the input tile and the output tile move with the point along the rows; the weight
    and the bias stay. -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The three input blocks of a point, at their literal types. -/
abbrev xblk (c : Dev nD) (t : Fin cfg0.N) : Vec Ideal S512x1024 .bf16 := iblk0 V c 0 t
abbrev wblk (c : Dev nD) (t : Fin cfg0.N) : Vec Ideal S1024x2048 .bf16 := iblk0 V c 1 t
abbrev bblk (c : Dev nD) (t : Fin cfg0.N) : Vec Ideal S1x2048 .f32 := iblk0 V c 2 t

/-- Row `r` of point `t`'s tile is row `512 t + r` of the array. -/
def rowOf (t : Fin cfg0.N) (r : Fin 512) : Fin 32768 := ⟨t.val * 512 + r.val, by
  have ht : t.val < 64 := lt_of_lt_of_eq t.isLt N_0
  have hr := r.isLt
  omega⟩

/-- The kernel's dimension numbers are those of a plain product. -/
theorem tileDot : PlainDot (dot_S512x1024_S1024x2048_S512x2048_1_0_0_1_n_n : DotDims ⟨2, ![512, 1024]⟩ ⟨2, ![1024, 2048]⟩ ⟨2, ![512, 2048]⟩) :=
  plainDot_of_lists _ rfl rfl rfl rfl rfl rfl

/-- The input tile read through its window: entry `(r, k)` is the array's entry `(512 t + r, k)`. -/
theorem xblk_apply (c : Dev nD) (t : Fin cfg0.N) (r : Fin 512) (k : Fin 1024) :
    xblk V c t (ix2 r k) = V c main_v0 (ix2 (rowOf t r) k) := by
  obtain ⟨e00, e01, -⟩ := index_maps t
  show V c main_v0 (((cfg0.win 0).blk t).view.emb (ix2 r k)) = _
  refine congrArg (V c main_v0) (funext fun a => Fin.ext ?_)
  match a with
  | ⟨0, _⟩ => show win0_0.index t (0 : Fin 2) * 512 + 1 * r.val = t.val * 512 + r.val; omega
  | ⟨1, _⟩ => show win0_0.index t (1 : Fin 2) * 1024 + 1 * k.val = k.val; omega

/-- The weight block is the whole weight array. -/
theorem wblk_apply (c : Dev nD) (t : Fin cfg0.N) (k : Fin 1024) (q : Fin 2048) :
    wblk V c t (ix2 k q) = V c main_v11 (ix2 k q) := by
  obtain ⟨-, -, e10, e11, -⟩ := index_maps t
  show V c main_v11 (((cfg0.win 1).blk t).view.emb (ix2 k q)) = _
  refine congrArg (V c main_v11) (funext fun a => Fin.ext ?_)
  match a with
  | ⟨0, _⟩ => show win0_1.index t (0 : Fin 2) * 1024 + 1 * k.val = k.val; omega
  | ⟨1, _⟩ => show win0_1.index t (1 : Fin 2) * 2048 + 1 * q.val = q.val; omega

/-- The bias block is the whole one-row bias array. -/
theorem bblk_apply (c : Dev nD) (t : Fin cfg0.N) (q : Fin 2048) :
    bblk V c t (ix2 (0 : Fin 1) q) = V c main_v12 (ix2 (0 : Fin 1) q) := by
  obtain ⟨-, -, -, -, e20, e21, -⟩ := index_maps t
  show V c main_v12 (((cfg0.win 2).blk t).view.emb (ix2 (0 : Fin 1) q)) = _
  refine congrArg (V c main_v12) (funext fun a => Fin.ext ?_)
  match a with
  | ⟨0, _⟩ => show win0_2.index t (0 : Fin 2) * 1 + 1 * 0 = 0; omega
  | ⟨1, _⟩ => show win0_2.index t (1 : Fin 2) * 2048 + 1 * q.val = q.val; omega

section
variable (c : Dev nD)
  {dW : DotDims ⟨2, ![32768, 1024]⟩ ⟨2, ![1024, 2048]⟩ ⟨2, ![32768, 2048]⟩} (hW : PlainDot dW)
  (h1 : (⟨1, ![2048]⟩ : Shape).BroadcastsInDim ⟨2, ![1, 2048]⟩ (![1] : Fin 1 → Fin 2))
  (h2 : (⟨2, ![1, 2048]⟩ : Shape).BroadcastsInDim ⟨2, ![32768, 2048]⟩ (![0, 1] : Fin 2 → Fin 2))
  (h0 : (⟨0, ![]⟩ : Shape).BroadcastsInDim ⟨2, ![32768, 2048]⟩ (![] : Fin 0 → Fin 2))
  (X : FVec Ideal ⟨2, ![32768, 1024]⟩ .f32) (w : FVec Ideal ⟨2, ![1024, 2048]⟩ .f32) (b : FVec Ideal ⟨1, ![2048]⟩ .f32)
  (hX : ∀ i : S32768x1024.Idx, (V c main_v0 i : EReal) = X i)
  (hw : ∀ i : S1024x2048.Idx, (V c main_v11 i : EReal) = w i)
  (hb : ∀ q : Fin 2048, (V c main_v12 (ix2 (0 : Fin 1) q) : EReal) = b (ix1 q))

/-- The layer's values as the contents of the region's output array. -/
abbrev target : Buf (Elt Ideal) ((cfg0.win 3).arr.view.loc (c.tc : Thread nD τ)) :=
  fun i => Spec.layer dW h1 h2 h0 X w b i

include hW hX hw hb in
/-- WHAT POINT `t` WRITES BACK is rows `512 t … 512 t + 511` of the layer. -/
theorem flushed_eq (t : Fin cfg0.N) :
    (dat0 (F := Ideal) V c).flushed 3 t = ((cfg0.win 3).blk t).view.read (Elt Ideal) (target (dW := dW) c h1 h2 h0 X w b) := by
  show (cfg0.win 3).cut (grid0.coords t) ((dat0 V c).after 3 t) = _
  rw [after0_3]
  unfold out0_3
  rw [View.canon_unit_zero origin]
  simp only [View.ld_unit_zero (S := S512x1024) origin, View.ld_unit_zero (S := S1024x2048) origin, View.ld_unit_zero (S := S1x2048) origin]
  funext j
  obtain ⟨r, q, rfl⟩ : ∃ (r : Fin 512) (q : Fin 2048), j = ix2 r q := ⟨j 0, j 1, eq_ix2 j⟩
  obtain ⟨-, -, -, -, -, -, e30, e31⟩ := index_maps t
  have hemb : ((cfg0.win 3).blk t).view.emb (ix2 r q) = ix2 (rowOf t r) q := by
    funext a; apply Fin.ext
    match a with
    | ⟨0, _⟩ => show win0_3.index t (0 : Fin 2) * 512 + 1 * r.val = t.val * 512 + r.val; omega
    | ⟨1, _⟩ => show win0_3.index t (1 : Fin 2) * 2048 + 1 * q.val = q.val; omega
  show k0_pay1 (xblk V c t) (wblk V c t) (bblk V c t) (ix2 r q) = Spec.layer dW h1 h2 h0 X w b (((cfg0.win 3).blk t).view.emb (ix2 r q))
  rw [hemb]
  unfold k0_pay1
  exact tile_row tileDot hW (xblk V c t) (wblk V c t) (bblk V c t) X w b (rowOf t)
    (fun r k => (xblk_apply V c t r k).trans (hX _)) (fun k q => (wblk_apply V c t k q).trans (hw _))
    (fun q => (bblk_apply V c t q).trans (hb q))
    shapeCasts_S512x1024_S512x1024 shapeCasts_S1024x2048_S1024x2048 shapeCasts_S1x2048_S1x2048 broadcasts_S1x2048_S512x2048 h1 h2 h0 r q

/-- An index of the output array is in point `t`'s block iff each coordinate is in the block's range on its axis. -/
theorem mem_blk (t : Fin cfg0.N) (i : S32768x2048.Idx) :
    i ∈ ((cfg0.win 3).blk t).view.set ↔ ∀ a : Fin 2, win0_3.index t a * S512x2048.size a ≤ (i a).val ∧ (i a).val < win0_3.index t a * S512x2048.size a + S512x2048.size a := by
  show i ∈ ((View.whole main_v13).slice (win0_3.rect t)).set ↔ _
  rw [View.set_slice_whole, Rect.mem_set_unit]
  exact Iff.rfl

/-- The 64 tiles cover the output array: row `n` lies in the tile of point `n / 512`. -/
theorem cover (i : S32768x2048.Idx) :
    ∃ t : Fin cfg0.N, (cfg0.win 3).flush t = true ∧ i ∈ ((cfg0.win 3).blk t).view.set := by
  have hi0 : (i 0).val < 32768 := (i 0).isLt
  have hi1 : (i 1).val < 2048 := (i 1).isLt
  let t : Fin cfg0.N := ⟨(i 0).val / 512, by have hN : cfg0.N = 64 := N_0; omega⟩
  obtain ⟨-, -, -, -, -, -, e30, e31⟩ := index_maps t
  have e30' : win0_3.index t (0 : Fin 2) = (i 0).val / 512 := e30
  refine ⟨t, flush0_3 t, ?_⟩
  rw [mem_blk]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 2048 ≤ (i 1).val ∧ (i 1).val < win0_3.index t (1 : Fin 2) * 2048 + 2048; omega

include hW hX hw hb in
/-- THE OUTPUT ARRAY after the region: the layer of the arrays the region found, entry by entry. -/
theorem value : (dat0 (F := Ideal) V c).arrAt 3 cfg0.N = target (dW := dW) c h1 h2 h0 X w b :=
  (dat0 (F := Ideal) V c).arrAt_eq_of_cover 3 (target (dW := dW) c h1 h2 h0 X w b)
    (fun t _ => flushed_eq V c hW h1 h2 h0 X w b hX hw hb t) (cover)

end

end Cert.KernelIdeal.Region0

end
-- ==== Proof.Region1.lean ====
/-
  Region 1 of the kernel program computes layer 1 on row tiles.

  The region's grid has 64 points; point `t` is handed rows `512 t … 512 t + 511` of the region's input array
  (a `[32768, 2048]` array of bf16-narrowed numbers), the whole transposed weight `[2048, 2048]` and the bias as a one-row block,
  and writes back rows `512 t … 512 t + 511` of the `[32768, 2048]` output. What it writes at row `r`, column `q` of the
  tile is the layer's value at row `512 t + r`, column `q` (the row lemma); the 64 tiles cover the output array. Hence
  the output array after the region is the layer of the arrays the region found, entry by entry (`value`).
-/
import proofs.«165135_j85959475462477_1_alg».proof.Proof.Gen.KernelIdeal.Frame
import proofs.«165135_j85959475462477_1_alg».proof.Proof.Rows
import Idealize.ShloMosaic.Lib.Pipeline.Value

set_option maxRecDepth 16384

noncomputable section

namespace Cert.KernelIdeal.Region1

open Cert.KernelIdeal Cert.KernelIdeal.Gen Cert.Lib Cert.Rows
open Idealize.ShloMosaic Idealize.ShloMosaic.TcCoe Idealize.ShloMosaic.ValueIdx Idealize.SL.Sem
open Idealize.ShloMosaic.Pipeline (Dat Cfg Window)

-- the arrays as the region finds them: a parameter
variable (V : (c : Dev nD) → (b : Ref sig .tc) → Buf (Elt Ideal) ((c : Thread nD τ).loc b))

theorem origin : (![0, 0] : Fin 2 → Nat) = fun _ => 0 := funext fun a => by fin_cases a <;> rfl

/-- The index maps over the grid: the input tile and the output tile move with the point along the rows; the weight
    and the bias stay. -/
theorem index_maps : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The three input blocks of a point, at their literal types. -/
abbrev xblk (c : Dev nD) (t : Fin cfg1.N) : Vec Ideal S512x2048 .bf16 := iblk1 V c 0 t
abbrev wblk (c : Dev nD) (t : Fin cfg1.N) : Vec Ideal S2048x2048 .bf16 := iblk1 V c 1 t
abbrev bblk (c : Dev nD) (t : Fin cfg1.N) : Vec Ideal S1x2048 .f32 := iblk1 V c 2 t

/-- Row `r` of point `t`'s tile is row `512 t + r` of the array. -/
def rowOf (t : Fin cfg1.N) (r : Fin 512) : Fin 32768 := ⟨t.val * 512 + r.val, by
  have ht : t.val < 64 := lt_of_lt_of_eq t.isLt N_1
  have hr := r.isLt
  omega⟩

/-- The kernel's dimension numbers are those of a plain product. -/
theorem tileDot : PlainDot (dot_S512x2048_S2048x2048_S512x2048_1_0_0_1_n_n : DotDims ⟨2, ![512, 2048]⟩ ⟨2, ![2048, 2048]⟩ ⟨2, ![512, 2048]⟩) :=
  plainDot_of_lists _ rfl rfl rfl rfl rfl rfl

/-- The input tile read through its window: entry `(r, k)` is the array's entry `(512 t + r, k)`. -/
theorem xblk_apply (c : Dev nD) (t : Fin cfg1.N) (r : Fin 512) (k : Fin 2048) :
    xblk V c t (ix2 r k) = V c main_v13 (ix2 (rowOf t r) k) := by
  obtain ⟨e00, e01, -⟩ := index_maps t
  show V c main_v13 (((cfg1.win 0).blk t).view.emb (ix2 r k)) = _
  refine congrArg (V c main_v13) (funext fun a => Fin.ext ?_)
  match a with
  | ⟨0, _⟩ => show win1_0.index t (0 : Fin 2) * 512 + 1 * r.val = t.val * 512 + r.val; omega
  | ⟨1, _⟩ => show win1_0.index t (1 : Fin 2) * 2048 + 1 * k.val = k.val; omega

/-- The weight block is the whole weight array. -/
theorem wblk_apply (c : Dev nD) (t : Fin cfg1.N) (k : Fin 2048) (q : Fin 2048) :
    wblk V c t (ix2 k q) = V c main_v24 (ix2 k q) := by
  obtain ⟨-, -, e10, e11, -⟩ := index_maps t
  show V c main_v24 (((cfg1.win 1).blk t).view.emb (ix2 k q)) = _
  refine congrArg (V c main_v24) (funext fun a => Fin.ext ?_)
  match a with
  | ⟨0, _⟩ => show win1_1.index t (0 : Fin 2) * 2048 + 1 * k.val = k.val; omega
  | ⟨1, _⟩ => show win1_1.index t (1 : Fin 2) * 2048 + 1 * q.val = q.val; omega

/-- The bias block is the whole one-row bias array. -/
theorem bblk_apply (c : Dev nD) (t : Fin cfg1.N) (q : Fin 2048) :
    bblk V c t (ix2 (0 : Fin 1) q) = V c main_v25 (ix2 (0 : Fin 1) q) := by
  obtain ⟨-, -, -, -, e20, e21, -⟩ := index_maps t
  show V c main_v25 (((cfg1.win 2).blk t).view.emb (ix2 (0 : Fin 1) q)) = _
  refine congrArg (V c main_v25) (funext fun a => Fin.ext ?_)
  match a with
  | ⟨0, _⟩ => show win1_2.index t (0 : Fin 2) * 1 + 1 * 0 = 0; omega
  | ⟨1, _⟩ => show win1_2.index t (1 : Fin 2) * 2048 + 1 * q.val = q.val; omega

section
variable (c : Dev nD)
  {dW : DotDims ⟨2, ![32768, 2048]⟩ ⟨2, ![2048, 2048]⟩ ⟨2, ![32768, 2048]⟩} (hW : PlainDot dW)
  (h1 : (⟨1, ![2048]⟩ : Shape).BroadcastsInDim ⟨2, ![1, 2048]⟩ (![1] : Fin 1 → Fin 2))
  (h2 : (⟨2, ![1, 2048]⟩ : Shape).BroadcastsInDim ⟨2, ![32768, 2048]⟩ (![0, 1] : Fin 2 → Fin 2))
  (h0 : (⟨0, ![]⟩ : Shape).BroadcastsInDim ⟨2, ![32768, 2048]⟩ (![] : Fin 0 → Fin 2))
  (X : FVec Ideal ⟨2, ![32768, 2048]⟩ .f32) (w : FVec Ideal ⟨2, ![2048, 2048]⟩ .f32) (b : FVec Ideal ⟨1, ![2048]⟩ .f32)
  (hX : ∀ i : S32768x2048.Idx, (V c main_v13 i : EReal) = X i)
  (hw : ∀ i : S2048x2048.Idx, (V c main_v24 i : EReal) = w i)
  (hb : ∀ q : Fin 2048, (V c main_v25 (ix2 (0 : Fin 1) q) : EReal) = b (ix1 q))

/-- The layer's values as the contents of the region's output array. -/
abbrev target : Buf (Elt Ideal) ((cfg1.win 3).arr.view.loc (c.tc : Thread nD τ)) :=
  fun i => Spec.layer dW h1 h2 h0 X w b i

include hW hX hw hb in
/-- WHAT POINT `t` WRITES BACK is rows `512 t … 512 t + 511` of the layer. -/
theorem flushed_eq (t : Fin cfg1.N) :
    (dat1 (F := Ideal) V c).flushed 3 t = ((cfg1.win 3).blk t).view.read (Elt Ideal) (target (dW := dW) c h1 h2 h0 X w b) := by
  show (cfg1.win 3).cut (grid1.coords t) ((dat1 V c).after 3 t) = _
  rw [after1_3]
  unfold out1_3
  rw [View.canon_unit_zero origin]
  simp only [View.ld_unit_zero (S := S512x2048) origin, View.ld_unit_zero (S := S2048x2048) origin, View.ld_unit_zero (S := S1x2048) origin]
  funext j
  obtain ⟨r, q, rfl⟩ : ∃ (r : Fin 512) (q : Fin 2048), j = ix2 r q := ⟨j 0, j 1, eq_ix2 j⟩
  obtain ⟨-, -, -, -, -, -, e30, e31⟩ := index_maps t
  have hemb : ((cfg1.win 3).blk t).view.emb (ix2 r q) = ix2 (rowOf t r) q := by
    funext a; apply Fin.ext
    match a with
    | ⟨0, _⟩ => show win1_3.index t (0 : Fin 2) * 512 + 1 * r.val = t.val * 512 + r.val; omega
    | ⟨1, _⟩ => show win1_3.index t (1 : Fin 2) * 2048 + 1 * q.val = q.val; omega
  show k1_pay1 (xblk V c t) (wblk V c t) (bblk V c t) (ix2 r q) = Spec.layer dW h1 h2 h0 X w b (((cfg1.win 3).blk t).view.emb (ix2 r q))
  rw [hemb]
  unfold k1_pay1
  exact tile_row tileDot hW (xblk V c t) (wblk V c t) (bblk V c t) X w b (rowOf t)
    (fun r k => (xblk_apply V c t r k).trans (hX _)) (fun k q => (wblk_apply V c t k q).trans (hw _))
    (fun q => (bblk_apply V c t q).trans (hb q))
    shapeCasts_S512x2048_S512x2048 shapeCasts_S2048x2048_S2048x2048 shapeCasts_S1x2048_S1x2048 broadcasts_S1x2048_S512x2048 h1 h2 h0 r q

/-- An index of the output array is in point `t`'s block iff each coordinate is in the block's range on its axis. -/
theorem mem_blk (t : Fin cfg1.N) (i : S32768x2048.Idx) :
    i ∈ ((cfg1.win 3).blk t).view.set ↔ ∀ a : Fin 2, win1_3.index t a * S512x2048.size a ≤ (i a).val ∧ (i a).val < win1_3.index t a * S512x2048.size a + S512x2048.size a := by
  show i ∈ ((View.whole main_v26).slice (win1_3.rect t)).set ↔ _
  rw [View.set_slice_whole, Rect.mem_set_unit]
  exact Iff.rfl

/-- The 64 tiles cover the output array: row `n` lies in the tile of point `n / 512`. -/
theorem cover (i : S32768x2048.Idx) :
    ∃ t : Fin cfg1.N, (cfg1.win 3).flush t = true ∧ i ∈ ((cfg1.win 3).blk t).view.set := by
  have hi0 : (i 0).val < 32768 := (i 0).isLt
  have hi1 : (i 1).val < 2048 := (i 1).isLt
  let t : Fin cfg1.N := ⟨(i 0).val / 512, by have hN : cfg1.N = 64 := N_1; omega⟩
  obtain ⟨-, -, -, -, -, -, e30, e31⟩ := index_maps t
  have e30' : win1_3.index t (0 : Fin 2) = (i 0).val / 512 := e30
  refine ⟨t, flush1_3 t, ?_⟩
  rw [mem_blk]
  intro a
  match a with
  | ⟨0, _⟩ => show win1_3.index t (0 : Fin 2) * 512 ≤ (i 0).val ∧ (i 0).val < win1_3.index t (0 : Fin 2) * 512 + 512; omega
  | ⟨1, _⟩ => show win1_3.index t (1 : Fin 2) * 2048 ≤ (i 1).val ∧ (i 1).val < win1_3.index t (1 : Fin 2) * 2048 + 2048; omega

include hW hX hw hb in
/-- THE OUTPUT ARRAY after the region: the layer of the arrays the region found, entry by entry. -/
theorem value : (dat1 (F := Ideal) V c).arrAt 3 cfg1.N = target (dW := dW) c h1 h2 h0 X w b :=
  (dat1 (F := Ideal) V c).arrAt_eq_of_cover 3 (target (dW := dW) c h1 h2 h0 X w b)
    (fun t _ => flushed_eq V c hW h1 h2 h0 X w b hX hw hb t) (cover)

end

end Cert.KernelIdeal.Region1

end
-- ==== Proof.Region2.lean ====
/-
  Region 2 of the kernel program computes layer 2 on row tiles.

  The region's grid has 64 points; point `t` is handed rows `512 t … 512 t + 511` of the region's input array
  (a `[32768, 2048]` array of bf16-narrowed numbers), the whole transposed weight `[2048, 2048]` and the bias as a one-row block,
  and writes back rows `512 t … 512 t + 511` of the `[32768, 2048]` output. What it writes at row `r`, column `q` of the
  tile is the layer's value at row `512 t + r`, column `q` (the row lemma); the 64 tiles cover the output array. Hence
  the output array after the region is the layer of the arrays the region found, entry by entry (`value`).
-/
import proofs.«165135_j85959475462477_1_alg».proof.Proof.Gen.KernelIdeal.Frame
import proofs.«165135_j85959475462477_1_alg».proof.Proof.Rows
import Idealize.ShloMosaic.Lib.Pipeline.Value

set_option maxRecDepth 16384

noncomputable section

namespace Cert.KernelIdeal.Region2

open Cert.KernelIdeal Cert.KernelIdeal.Gen Cert.Lib Cert.Rows
open Idealize.ShloMosaic Idealize.ShloMosaic.TcCoe Idealize.ShloMosaic.ValueIdx Idealize.SL.Sem
open Idealize.ShloMosaic.Pipeline (Dat Cfg Window)

-- the arrays as the region finds them: a parameter
variable (V : (c : Dev nD) → (b : Ref sig .tc) → Buf (Elt Ideal) ((c : Thread nD τ).loc b))

theorem origin : (![0, 0] : Fin 2 → Nat) = fun _ => 0 := funext fun a => by fin_cases a <;> rfl

/-- The index maps over the grid: the input tile and the output tile move with the point along the rows; the weight
    and the bias stay. -/
theorem index_maps : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The three input blocks of a point, at their literal types. -/
abbrev xblk (c : Dev nD) (t : Fin cfg2.N) : Vec Ideal S512x2048 .bf16 := iblk2 V c 0 t
abbrev wblk (c : Dev nD) (t : Fin cfg2.N) : Vec Ideal S2048x2048 .bf16 := iblk2 V c 1 t
abbrev bblk (c : Dev nD) (t : Fin cfg2.N) : Vec Ideal S1x2048 .f32 := iblk2 V c 2 t

/-- Row `r` of point `t`'s tile is row `512 t + r` of the array. -/
def rowOf (t : Fin cfg2.N) (r : Fin 512) : Fin 32768 := ⟨t.val * 512 + r.val, by
  have ht : t.val < 64 := lt_of_lt_of_eq t.isLt N_2
  have hr := r.isLt
  omega⟩

/-- The kernel's dimension numbers are those of a plain product. -/
theorem tileDot : PlainDot (dot_S512x2048_S2048x2048_S512x2048_1_0_0_1_n_n : DotDims ⟨2, ![512, 2048]⟩ ⟨2, ![2048, 2048]⟩ ⟨2, ![512, 2048]⟩) :=
  plainDot_of_lists _ rfl rfl rfl rfl rfl rfl

/-- The input tile read through its window: entry `(r, k)` is the array's entry `(512 t + r, k)`. -/
theorem xblk_apply (c : Dev nD) (t : Fin cfg2.N) (r : Fin 512) (k : Fin 2048) :
    xblk V c t (ix2 r k) = V c main_v26 (ix2 (rowOf t r) k) := by
  obtain ⟨e00, e01, -⟩ := index_maps t
  show V c main_v26 (((cfg2.win 0).blk t).view.emb (ix2 r k)) = _
  refine congrArg (V c main_v26) (funext fun a => Fin.ext ?_)
  match a with
  | ⟨0, _⟩ => show win2_0.index t (0 : Fin 2) * 512 + 1 * r.val = t.val * 512 + r.val; omega
  | ⟨1, _⟩ => show win2_0.index t (1 : Fin 2) * 2048 + 1 * k.val = k.val; omega

/-- The weight block is the whole weight array. -/
theorem wblk_apply (c : Dev nD) (t : Fin cfg2.N) (k : Fin 2048) (q : Fin 2048) :
    wblk V c t (ix2 k q) = V c main_v37 (ix2 k q) := by
  obtain ⟨-, -, e10, e11, -⟩ := index_maps t
  show V c main_v37 (((cfg2.win 1).blk t).view.emb (ix2 k q)) = _
  refine congrArg (V c main_v37) (funext fun a => Fin.ext ?_)
  match a with
  | ⟨0, _⟩ => show win2_1.index t (0 : Fin 2) * 2048 + 1 * k.val = k.val; omega
  | ⟨1, _⟩ => show win2_1.index t (1 : Fin 2) * 2048 + 1 * q.val = q.val; omega

/-- The bias block is the whole one-row bias array. -/
theorem bblk_apply (c : Dev nD) (t : Fin cfg2.N) (q : Fin 2048) :
    bblk V c t (ix2 (0 : Fin 1) q) = V c main_v38 (ix2 (0 : Fin 1) q) := by
  obtain ⟨-, -, -, -, e20, e21, -⟩ := index_maps t
  show V c main_v38 (((cfg2.win 2).blk t).view.emb (ix2 (0 : Fin 1) q)) = _
  refine congrArg (V c main_v38) (funext fun a => Fin.ext ?_)
  match a with
  | ⟨0, _⟩ => show win2_2.index t (0 : Fin 2) * 1 + 1 * 0 = 0; omega
  | ⟨1, _⟩ => show win2_2.index t (1 : Fin 2) * 2048 + 1 * q.val = q.val; omega

section
variable (c : Dev nD)
  {dW : DotDims ⟨2, ![32768, 2048]⟩ ⟨2, ![2048, 2048]⟩ ⟨2, ![32768, 2048]⟩} (hW : PlainDot dW)
  (h1 : (⟨1, ![2048]⟩ : Shape).BroadcastsInDim ⟨2, ![1, 2048]⟩ (![1] : Fin 1 → Fin 2))
  (h2 : (⟨2, ![1, 2048]⟩ : Shape).BroadcastsInDim ⟨2, ![32768, 2048]⟩ (![0, 1] : Fin 2 → Fin 2))
  (h0 : (⟨0, ![]⟩ : Shape).BroadcastsInDim ⟨2, ![32768, 2048]⟩ (![] : Fin 0 → Fin 2))
  (X : FVec Ideal ⟨2, ![32768, 2048]⟩ .f32) (w : FVec Ideal ⟨2, ![2048, 2048]⟩ .f32) (b : FVec Ideal ⟨1, ![2048]⟩ .f32)
  (hX : ∀ i : S32768x2048.Idx, (V c main_v26 i : EReal) = X i)
  (hw : ∀ i : S2048x2048.Idx, (V c main_v37 i : EReal) = w i)
  (hb : ∀ q : Fin 2048, (V c main_v38 (ix2 (0 : Fin 1) q) : EReal) = b (ix1 q))

/-- The layer's values as the contents of the region's output array. -/
abbrev target : Buf (Elt Ideal) ((cfg2.win 3).arr.view.loc (c.tc : Thread nD τ)) :=
  fun i => Spec.layer dW h1 h2 h0 X w b i

include hW hX hw hb in
/-- WHAT POINT `t` WRITES BACK is rows `512 t … 512 t + 511` of the layer. -/
theorem flushed_eq (t : Fin cfg2.N) :
    (dat2 (F := Ideal) V c).flushed 3 t = ((cfg2.win 3).blk t).view.read (Elt Ideal) (target (dW := dW) c h1 h2 h0 X w b) := by
  show (cfg2.win 3).cut (grid2.coords t) ((dat2 V c).after 3 t) = _
  rw [after2_3]
  unfold out2_3
  rw [View.canon_unit_zero origin]
  simp only [View.ld_unit_zero (S := S512x2048) origin, View.ld_unit_zero (S := S2048x2048) origin, View.ld_unit_zero (S := S1x2048) origin]
  funext j
  obtain ⟨r, q, rfl⟩ : ∃ (r : Fin 512) (q : Fin 2048), j = ix2 r q := ⟨j 0, j 1, eq_ix2 j⟩
  obtain ⟨-, -, -, -, -, -, e30, e31⟩ := index_maps t
  have hemb : ((cfg2.win 3).blk t).view.emb (ix2 r q) = ix2 (rowOf t r) q := by
    funext a; apply Fin.ext
    match a with
    | ⟨0, _⟩ => show win2_3.index t (0 : Fin 2) * 512 + 1 * r.val = t.val * 512 + r.val; omega
    | ⟨1, _⟩ => show win2_3.index t (1 : Fin 2) * 2048 + 1 * q.val = q.val; omega
  show k2_pay1 (xblk V c t) (wblk V c t) (bblk V c t) (ix2 r q) = Spec.layer dW h1 h2 h0 X w b (((cfg2.win 3).blk t).view.emb (ix2 r q))
  rw [hemb]
  unfold k2_pay1
  exact tile_row tileDot hW (xblk V c t) (wblk V c t) (bblk V c t) X w b (rowOf t)
    (fun r k => (xblk_apply V c t r k).trans (hX _)) (fun k q => (wblk_apply V c t k q).trans (hw _))
    (fun q => (bblk_apply V c t q).trans (hb q))
    shapeCasts_S512x2048_S512x2048 shapeCasts_S2048x2048_S2048x2048 shapeCasts_S1x2048_S1x2048 broadcasts_S1x2048_S512x2048 h1 h2 h0 r q

/-- An index of the output array is in point `t`'s block iff each coordinate is in the block's range on its axis. -/
theorem mem_blk (t : Fin cfg2.N) (i : S32768x2048.Idx) :
    i ∈ ((cfg2.win 3).blk t).view.set ↔ ∀ a : Fin 2, win2_3.index t a * S512x2048.size a ≤ (i a).val ∧ (i a).val < win2_3.index t a * S512x2048.size a + S512x2048.size a := by
  show i ∈ ((View.whole main_v39).slice (win2_3.rect t)).set ↔ _
  rw [View.set_slice_whole, Rect.mem_set_unit]
  exact Iff.rfl

/-- The 64 tiles cover the output array: row `n` lies in the tile of point `n / 512`. -/
theorem cover (i : S32768x2048.Idx) :
    ∃ t : Fin cfg2.N, (cfg2.win 3).flush t = true ∧ i ∈ ((cfg2.win 3).blk t).view.set := by
  have hi0 : (i 0).val < 32768 := (i 0).isLt
  have hi1 : (i 1).val < 2048 := (i 1).isLt
  let t : Fin cfg2.N := ⟨(i 0).val / 512, by have hN : cfg2.N = 64 := N_2; omega⟩
  obtain ⟨-, -, -, -, -, -, e30, e31⟩ := index_maps t
  have e30' : win2_3.index t (0 : Fin 2) = (i 0).val / 512 := e30
  refine ⟨t, flush2_3 t, ?_⟩
  rw [mem_blk]
  intro a
  match a with
  | ⟨0, _⟩ => show win2_3.index t (0 : Fin 2) * 512 ≤ (i 0).val ∧ (i 0).val < win2_3.index t (0 : Fin 2) * 512 + 512; omega
  | ⟨1, _⟩ => show win2_3.index t (1 : Fin 2) * 2048 ≤ (i 1).val ∧ (i 1).val < win2_3.index t (1 : Fin 2) * 2048 + 2048; omega

include hW hX hw hb in
/-- THE OUTPUT ARRAY after the region: the layer of the arrays the region found, entry by entry. -/
theorem value : (dat2 (F := Ideal) V c).arrAt 3 cfg2.N = target (dW := dW) c h1 h2 h0 X w b :=
  (dat2 (F := Ideal) V c).arrAt_eq_of_cover 3 (target (dW := dW) c h1 h2 h0 X w b)
    (fun t _ => flushed_eq V c hW h1 h2 h0 X w b hX hw hb t) (cover)

end

end Cert.KernelIdeal.Region2

end
-- ==== Proof.Net.lean ====
/-
  The whole network: three layers, the first weight quantized to `[-127, 127]`, the other two to `[-7, 7]`.
-/
import proofs.«165135_j85959475462477_1_alg».proof.Proof.Spec

noncomputable section

namespace Cert.Spec

open Idealize.ShloMosaic

variable {F : FTy → Type} [FloatOps F]

/-- `x ↦ layer (layer (layer x)))` with the quantized, transposed weights: `x : [32768, 1024]`, `W0 : [2048, 1024]`,
    `W1, W2 : [2048, 2048]`, biases `[2048]`. The words `0x42FE0000`, `0xC2FE0000` are 127 and -127, `0x40E00000`,
    `0xC0E00000` are 7 and -7. -/
def net
    (d0 : DotDims ⟨2, ![32768, 1024]⟩ ⟨2, ![1024, 2048]⟩ ⟨2, ![32768, 2048]⟩)
    (d1 : DotDims ⟨2, ![32768, 2048]⟩ ⟨2, ![2048, 2048]⟩ ⟨2, ![32768, 2048]⟩)
    (h1 : (⟨1, ![2048]⟩ : Shape).BroadcastsInDim ⟨2, ![1, 2048]⟩ (![1] : Fin 1 → Fin 2))
    (h2 : (⟨2, ![1, 2048]⟩ : Shape).BroadcastsInDim ⟨2, ![32768, 2048]⟩ (![0, 1] : Fin 2 → Fin 2))
    (h0 : (⟨0, ![]⟩ : Shape).BroadcastsInDim ⟨2, ![32768, 2048]⟩ (![] : Fin 0 → Fin 2))
    (hp : 0 < (⟨0, ![]⟩ : Shape).numel)
    (hrA : (⟨2, ![2048, 1024]⟩ : Shape).ReducesTo [0, 1] ⟨0, ![]⟩)
    (hbA : (⟨0, ![]⟩ : Shape).BroadcastsInDim ⟨2, ![2048, 1024]⟩ (![] : Fin 0 → Fin 2))
    (htA : (⟨2, ![2048, 1024]⟩ : Shape).Transposes [1, 0] ⟨2, ![1024, 2048]⟩)
    (hrB : (⟨2, ![2048, 2048]⟩ : Shape).ReducesTo [0, 1] ⟨0, ![]⟩)
    (hbB : (⟨0, ![]⟩ : Shape).BroadcastsInDim ⟨2, ![2048, 2048]⟩ (![] : Fin 0 → Fin 2))
    (htB : (⟨2, ![2048, 2048]⟩ : Shape).Transposes [1, 0] ⟨2, ![2048, 2048]⟩)
    (x : FVec F ⟨2, ![32768, 1024]⟩ .f32)
    (W0 : FVec F ⟨2, ![2048, 1024]⟩ .f32) (b0 : FVec F ⟨1, ![2048]⟩ .f32)
    (W1 : FVec F ⟨2, ![2048, 2048]⟩ .f32) (b1 : FVec F ⟨1, ![2048]⟩ .f32)
    (W2 : FVec F ⟨2, ![2048, 2048]⟩ .f32) (b2 : FVec F ⟨1, ![2048]⟩ .f32) : FVec F ⟨2, ![32768, 2048]⟩ .f32 :=
  layer d1 h1 h2 h0
    (layer d1 h1 h2 h0
      (layer d0 h1 h2 h0 x (quantT 0x42FE0000#32 0xC2FE0000#32 hrA hp hbA htA W0) b0)
      (quantT 0x40E00000#32 0xC0E00000#32 hrB hp hbB htB W1) b1)
    (quantT 0x40E00000#32 0xC0E00000#32 hrB hp hbB htB W2) b2

end Cert.Spec

end
-- ==== Proof.KValue.lean ====
/-
  The kernel program computes the network.

  Region 0 finds the input narrowed to bf16 (the same extended reals), the first weight quantized, transposed and
  narrowed, and the first bias as one row: its output array is layer 0 of the arguments. Region 1 finds that array,
  the second quantized weight and the second bias: its output is layer 1 of layer 0; region 2 likewise, and its
  output array is the program's result. Reading a `[2048]` vector reshaped to `[1, 2048]` at `(0, q)` gives entry `q`.
-/
import proofs.«165135_j85959475462477_1_alg».proof.Proof.Entry
import proofs.«165135_j85959475462477_1_alg».proof.Proof.Region0
import proofs.«165135_j85959475462477_1_alg».proof.Proof.Region1
import proofs.«165135_j85959475462477_1_alg».proof.Proof.Region2
import proofs.«165135_j85959475462477_1_alg».proof.Proof.Net
import Idealize.ShloMosaic.Lib.ValueLayout

set_option maxRecDepth 16384

noncomputable section

namespace Cert.KernelIdeal.Value

open Cert.KernelIdeal Cert.KernelIdeal.Gen Cert.Lib
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)
  {d0 : DotDims ⟨2, ![32768, 1024]⟩ ⟨2, ![1024, 2048]⟩ ⟨2, ![32768, 2048]⟩} (hd0 : PlainDot d0)
  {d1 : DotDims ⟨2, ![32768, 2048]⟩ ⟨2, ![2048, 2048]⟩ ⟨2, ![32768, 2048]⟩} (hd1 : PlainDot d1)
  (h1 : (⟨1, ![2048]⟩ : Shape).BroadcastsInDim ⟨2, ![1, 2048]⟩ (![1] : Fin 1 → Fin 2))
  (h2 : (⟨2, ![1, 2048]⟩ : Shape).BroadcastsInDim ⟨2, ![32768, 2048]⟩ (![0, 1] : Fin 2 → Fin 2))
  (h0 : (⟨0, ![]⟩ : Shape).BroadcastsInDim ⟨2, ![32768, 2048]⟩ (![] : Fin 0 → Fin 2))

/-- The three quantized, transposed weights of the arguments. -/
abbrev wq0 : FVec Ideal ⟨2, ![1024, 2048]⟩ .f32 :=
  Spec.quantT 0x42FE0000#32 0xC2FE0000#32 reducesTo_S2048x1024_S_d0_1 h_S_ bcast_S_S2048x1024 transposes_S2048x1024_S1024x2048_1_0
    (m ((c : Thread nD τ).loc main_arg1))
abbrev wq1 : FVec Ideal ⟨2, ![2048, 2048]⟩ .f32 :=
  Spec.quantT 0x40E00000#32 0xC0E00000#32 reducesTo_S2048x2048_S_d0_1 h_S_ bcast_S_S2048x2048 transposes_S2048x2048_S2048x2048_1_0
    (m ((c : Thread nD τ).loc main_arg3))
abbrev wq2 : FVec Ideal ⟨2, ![2048, 2048]⟩ .f32 :=
  Spec.quantT 0x40E00000#32 0xC0E00000#32 reducesTo_S2048x2048_S_d0_1 h_S_ bcast_S_S2048x2048 transposes_S2048x2048_S2048x2048_1_0
    (m ((c : Thread nD τ).loc main_arg5))

/-- The layers' outputs. -/
abbrev y0 : FVec Ideal ⟨2, ![32768, 2048]⟩ .f32 :=
  Spec.layer d0 h1 h2 h0 (m ((c : Thread nD τ).loc main_arg0)) (wq0 m c) (m ((c : Thread nD τ).loc main_arg2))
abbrev y1 : FVec Ideal ⟨2, ![32768, 2048]⟩ .f32 :=
  Spec.layer d1 h1 h2 h0 (y0 m c (d0 := d0) h1 h2 h0) (wq1 m c) (m ((c : Thread nD τ).loc main_arg4))
abbrev y2 : FVec Ideal ⟨2, ![32768, 2048]⟩ .f32 :=
  Spec.layer d1 h1 h2 h0 (y1 m c (d0 := d0) (d1 := d1) h1 h2 h0) (wq2 m c) (m ((c : Thread nD τ).loc main_arg6))

/-- A bias reshaped to one row, read at `(0, q)`. -/
theorem bias_row (b : FVec Ideal S2048 .f32) (q : Fin 2048) :
    shapeCast S1x2048 b shapeCasts_S2048_S1x2048 (ix2 (0 : Fin 1) q) = b (ix1 q) :=
  shapeCast_a_1a_apply b shapeCasts_S2048_S1x2048 0 q

include hd0 in
theorem out0 (i : S32768x2048.Idx) : ((dat0 (V5 m ρ) c).arrAt 3 cfg0.N i : EReal) = y0 m c (d0 := d0) h1 h2 h0 i :=
  congrFun (Region0.value (V5 m ρ) c hd0 h1 h2 h0 (m ((c : Thread nD τ).loc main_arg0)) (wq0 m c) (m ((c : Thread nD τ).loc main_arg2))
    (fun i => by rw [Entry.x0]; rfl) (fun i => by rw [Entry.w0]; rfl)
    (fun q => by rw [Entry.b0]; exact bias_row _ q)) i

include hd0 hd1 in
theorem out1 (i : S32768x2048.Idx) : ((dat1 (V11 m ρ) c).arrAt 3 cfg1.N i : EReal) = y1 m c (d0 := d0) (d1 := d1) h1 h2 h0 i :=
  congrFun (Region1.value (V11 m ρ) c hd1 h1 h2 h0 (y0 m c (d0 := d0) h1 h2 h0) (wq1 m c) (m ((c : Thread nD τ).loc main_arg4))
    (fun i => by rw [Entry.x1]; exact out0 m ρ c hd0 h1 h2 h0 i) (fun i => by rw [Entry.w1]; rfl)
    (fun q => by rw [Entry.b1]; exact bias_row _ q)) i

include hd0 hd1 in
theorem out2 (i : S32768x2048.Idx) : ((dat2 (V17 m ρ) c).arrAt 3 cfg2.N i : EReal) = y2 m c (d0 := d0) (d1 := d1) h1 h2 h0 i :=
  congrFun (Region2.value (V17 m ρ) c hd1 h1 h2 h0 (y1 m c (d0 := d0) (d1 := d1) h1 h2 h0) (wq2 m c) (m ((c : Thread nD τ).loc main_arg6))
    (fun i => by rw [Entry.x2]; exact out1 m ρ c hd0 hd1 h1 h2 h0 i) (fun i => by rw [Entry.w2]; rfl)
    (fun q => by rw [Entry.b2]; exact bias_row _ q)) i

include hd0 hd1 in
/-- THE RESULT ARRAY at the last boundary is the network of the arguments. -/
theorem result_eq : W18 m ρ c (Proc.devRef .tc main_v39) = Spec.net (F := Ideal) d0 d1 h1 h2 h0 h_S_
      reducesTo_S2048x1024_S_d0_1 bcast_S_S2048x1024 transposes_S2048x1024_S1024x2048_1_0
      reducesTo_S2048x2048_S_d0_1 bcast_S_S2048x2048 transposes_S2048x2048_S2048x2048_1_0
      (m ((c : Thread nD τ).loc main_arg0))
      (m ((c : Thread nD τ).loc main_arg1)) (m ((c : Thread nD τ).loc main_arg2))
      (m ((c : Thread nD τ).loc main_arg3)) (m ((c : Thread nD τ).loc main_arg4))
      (m ((c : Thread nD τ).loc main_arg5)) (m ((c : Thread nD τ).loc main_arg6)) := by
  rw [Entry.result]
  funext i
  exact out2 m ρ c hd0 hd1 h1 h2 h0 i

end Cert.KernelIdeal.Value

end
-- ==== Proof.RefValue.lean ====
/-
  The reference program computes the network.

  Its run ends with the result array at the composed term of its host operations over the arguments; that term is,
  operation for operation, the network's definition (three times: quantize and transpose the weight, multiply, add the
  bias row repeated over the rows, rectify), so the two are equal by unfolding the definitions. The reference's two
  `dot_general` records are plain products.
-/
import proofs.«165135_j85959475462477_1_alg».proof.Defs
import proofs.«165135_j85959475462477_1_alg».proof.Proof.Gen.ReferenceIdeal.Run
import proofs.«165135_j85959475462477_1_alg».proof.Proof.Net
import proofs.«165135_j85959475462477_1_alg».proof.Proof.Rows

noncomputable section

namespace Cert.RefSide

open Cert.ReferenceIdeal Cert.ReferenceIdeal.Gen Cert.ReferenceIdeal.Value
open Idealize.ShloMosaic Idealize.ShloMosaic.TcCoe Idealize.SL.Sem

variable {F : FTy → Type} [FloatOps F]

theorem dot0_plain : Cert.Lib.PlainDot (dot_S32768x1024_S1024x2048_S32768x2048_1_0_0_1_n_n :
    DotDims ⟨2, ![32768, 1024]⟩ ⟨2, ![1024, 2048]⟩ ⟨2, ![32768, 2048]⟩) :=
  Cert.Rows.plainDot_of_lists _ rfl rfl rfl rfl rfl rfl

theorem dot1_plain : Cert.Lib.PlainDot (dot_S32768x2048_S2048x2048_S32768x2048_1_0_0_1_n_n :
    DotDims ⟨2, ![32768, 2048]⟩ ⟨2, ![2048, 2048]⟩ ⟨2, ![32768, 2048]⟩) :=
  Cert.Rows.plainDot_of_lists _ rfl rfl rfl rfl rfl rfl

set_option maxRecDepth 16384 in
/-- The reference's result term is the network of its arguments. -/
theorem result_eq (m : (ℓ : Loc nD τ sig) → Buf (Elt F) ℓ) (c : Dev nD) :
    res_main_v56 m c = Cert.Spec.net (F := F)
      dot_S32768x1024_S1024x2048_S32768x2048_1_0_0_1_n_n dot_S32768x2048_S2048x2048_S32768x2048_1_0_0_1_n_n
      bcast_S2048_S1x2048_1 bcast_S1x2048_S32768x2048_0_1 bcast_S_S32768x2048 h_S_
      reducesTo_S2048x1024_S_d0_1 bcast_S_S2048x1024 transposes_S2048x1024_S1024x2048_1_0
      reducesTo_S2048x2048_S_d0_1 bcast_S_S2048x2048 transposes_S2048x2048_S2048x2048_1_0
      (m ((c.tc : Thread nD τ).loc main_arg0))
      (m ((c.tc : Thread nD τ).loc main_arg1)) (m ((c.tc : Thread nD τ).loc main_arg2))
      (m ((c.tc : Thread nD τ).loc main_arg3)) (m ((c.tc : Thread nD τ).loc main_arg4))
      (m ((c.tc : Thread nD τ).loc main_arg5)) (m ((c.tc : Thread nD τ).loc main_arg6)) := by
  unfold res_main_v56 Cert.Spec.net Cert.Spec.layer Cert.Spec.leaky Cert.Spec.affine Cert.Spec.quantT Cert.Spec.qscale
  rfl

end Cert.RefSide

end
-- ==== Proof.lean ====
/-
  A three-layer perceptron with quantized weights, row-tiled kernels against one whole matrix product per layer.

  Both programs quantize each weight matrix symmetrically (scale = largest absolute entry over 127 for the first
  layer, over 7 for the other two; round, clip, rescale), transpose it, and apply three times
  `h ↦ leaky (h · Wq + b)` with slope `f32(0.01)`. The reference does each layer as one `dot_general` over all 32768
  rows. The kernel program narrows the activations and weights to bf16 between layers (no change of value over the
  extended reals) and runs each layer as a pallas_call over 64 row tiles of 512 rows, each tile multiplying into zeros
  on the matrix unit, adding the bias row and rectifying. A tile's entry `(r, q)` is the same finite sum over the
  contracted index as the whole product's entry `(512 t + r, q)`, so each region's output array is the layer of what
  it found (Region0–2), the three compose to the network (KValue), and the reference's composed term is the
  network by definition (RefValue). No algebraic law beyond reading both sums over the same index set is used, so
  the precondition (finite inputs) is never opened. The ideal pass rewrote nothing, so `preserves` is `True`.
-/
import proofs.«165135_j85959475462477_1_alg».proof.Defs
import proofs.«165135_j85959475462477_1_alg».proof.Proof.Gen.Kernel
import proofs.«165135_j85959475462477_1_alg».proof.Proof.Gen.Kernel.Frame
import proofs.«165135_j85959475462477_1_alg».proof.Proof.Gen.KernelIdeal
import proofs.«165135_j85959475462477_1_alg».proof.Proof.Gen.KernelIdeal.Frame
import proofs.«165135_j85959475462477_1_alg».proof.Proof.Gen.ReferenceIdeal
import proofs.«165135_j85959475462477_1_alg».proof.Proof.Gen.ReferenceIdeal.Run
import proofs.«165135_j85959475462477_1_alg».proof.Proof.Gen.Pre_finite_inputs
import proofs.«165135_j85959475462477_1_alg».proof.Proof.KRun
import proofs.«165135_j85959475462477_1_alg».proof.Proof.KValue
import proofs.«165135_j85959475462477_1_alg».proof.Proof.RefValue
import Idealize.ShloMosaic.Adequacy
import Idealize.ShloMosaic.Init

noncomputable section

namespace Cert.Proof

open Idealize.ShloMosaic Idealize.SL.Sem

/-- The word-level kernel program runs and keeps its arguments: the generated frame. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference's frame is its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the network of their (agreeing) arguments in the result array. -/
theorem algebraic : Cert.algebraic_KernelIdeal_ReferenceIdeal := by
  intro m ρ m' ρ' _ hagree
  refine ⟨fun c => Cert.Spec.net (F := Ideal)
      Cert.ReferenceIdeal.dot_S32768x1024_S1024x2048_S32768x2048_1_0_0_1_n_n
      Cert.ReferenceIdeal.dot_S32768x2048_S2048x2048_S32768x2048_1_0_0_1_n_n
      Cert.ReferenceIdeal.Facts₀.bcast_S2048_S1x2048_1 Cert.ReferenceIdeal.Facts₀.bcast_S1x2048_S32768x2048_0_1
      Cert.ReferenceIdeal.Facts₀.bcast_S_S32768x2048 Cert.ReferenceIdeal.Facts₀.h_S_
      Cert.ReferenceIdeal.Facts₀.reducesTo_S2048x1024_S_d0_1 Cert.ReferenceIdeal.Facts₀.bcast_S_S2048x1024
      Cert.ReferenceIdeal.Facts₀.transposes_S2048x1024_S1024x2048_1_0
      Cert.ReferenceIdeal.Facts₀.reducesTo_S2048x2048_S_d0_1 Cert.ReferenceIdeal.Facts₀.bcast_S_S2048x2048
      Cert.ReferenceIdeal.Facts₀.transposes_S2048x2048_S2048x2048_1_0
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Value.result_eq m ρ c Cert.RefSide.dot0_plain Cert.RefSide.dot1_plain _ _ _), (h c).2⟩)
      (Cert.KernelIdeal.Named.run_named m ρ)
  · refine (θ_run Cert.ReferenceIdeal.defs _ _).mono (fun r h c => ⟨(h c).1.trans ?_, (h c).2⟩)
      (Cert.ReferenceIdeal.Value.run (F := Ideal) m' ρ')
    rw [Cert.RefSide.result_eq, (hagree c).1, (hagree c).2.1, (hagree c).2.2.1, (hagree c).2.2.2.1, (hagree c).2.2.2.2.1,
      (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
